-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S2048x16 : Shape := ⟨2, ![2048, 16]⟩
abbrev S16 : Shape := ⟨1, ![16]⟩
abbrev S16x8 : Shape := ⟨2, ![16, 8]⟩
abbrev S8 : Shape := ⟨1, ![8]⟩
abbrev S8x1024 : Shape := ⟨2, ![8, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2048x16 : S_.BroadcastsInDim S2048x16 (![] : Fin 0 → Fin S2048x16.rank)
  reducesTo_S2048x16_S_d0_1 : S2048x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1024 : S_.BroadcastsInDim S8x1024 (![] : Fin 0 → Fin S8x1024.rank)
  reducesTo_S8x1024_S_d0_1 : S8x1024.ReducesTo [0, 1] S_

variable [Facts]

def fn_part5 {F : FTy → Type} [FloatOps F] (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  main_v88

def fn_part4 {F : FTy → Type} [FloatOps F] (main_arg14 : FVec F S16x8 .f32) (main_arg15 : FVec F S8 .f32) (main_arg16 : FVec F S8x1024 .f32) (main_arg17 : FVec F S1024 .f32) (main_v63 : IVec S_ 1) (main_v67 : IVec S_ 1) : IVec S_ 1 :=
  let main_v68 : IVec S_ 1 := andi main_v63 main_v67
  let main_v69 : FVec F S16x8 .f32 := Host.absf main_arg14
  let main_cst_26 : FVec F S_ .f32 := constant S_ .f32 0x7F800000#32
  let main_v70 : FVec F S16x8 .f32 := broadcastInDim S16x8 ![] bcast_S_S16x8 main_cst_26
  let main_v71 : IVec S16x8 1 := cmpf .olt main_v69 main_v70
  let main_c_27 : IVec S_ 1 := constantI S_ 1 1#1
  let main_v72 : IVec S_ 1 := (fun x v => Host.reduce IntOp.andi x v reducesTo_S16x8_S_d0_1 h_S_) main_v71 main_c_27
  let main_v73 : IVec S_ 1 := andi main_v68 main_v72
  let main_v74 : FVec F S8 .f32 := Host.absf main_arg15
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  let main_v79 : FVec F S8x1024 .f32 := Host.absf main_arg16
  let main_cst_30 : FVec F S_ .f32 := constant S_ .f32 0x7F800000#32
  let main_v80 : FVec F S8x1024 .f32 := broadcastInDim S8x1024 ![] bcast_S_S8x1024 main_cst_30
  let main_v81 : IVec S8x1024 1 := cmpf .olt main_v79 main_v80
  let main_c_31 : IVec S_ 1 := constantI S_ 1 1#1
  let main_v82 : IVec S_ 1 := (fun x v => Host.reduce IntOp.andi x v reducesTo_S8x1024_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024 .f32) (main_arg12 : FVec F S2048x16 .f32) (main_arg13 : FVec F S16 .f32) (main_arg14 : FVec F S16x8 .f32) (main_arg15 : FVec F S8 .f32) (main_arg16 : FVec F S8x1024 .f32) (main_arg17 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S2048x16 .f32 := Host.absf main_arg12
  let main_cst_22 : FVec F S_ .f32 := constant S_ .f32 0x7F800000#32
  let main_v60 : FVec F S2048x16 .f32 := broadcastInDim S2048x16 ![] bcast_S_S2048x16 main_cst_22
  let main_v61 : IVec S2048x16 1 := cmpf .olt main_v59 main_v60
  let main_c_23 : IVec S_ 1 := constantI S_ 1 1#1
  let main_v62 : IVec S_ 1 := (fun x v => Host.reduce IntOp.andi x v reducesTo_S2048x16_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg14 main_arg15 main_arg16 main_arg17 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S2048x16 .f32) (main_arg13 : FVec F S16 .f32) (main_arg14 : FVec F S16x8 .f32) (main_arg15 : FVec F S8 .f32) (main_arg16 : FVec F S8x1024 .f32) (main_arg17 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S2048x16 .f32) (main_arg13 : FVec F S16 .f32) (main_arg14 : FVec F S16x8 .f32) (main_arg15 : FVec F S8 .f32) (main_arg16 : FVec F S8x1024 .f32) (main_arg17 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S2048x16 .f32) (main_arg13 : FVec F S16 .f32) (main_arg14 : FVec F S16x8 .f32) (main_arg15 : FVec F S8 .f32) (main_arg16 : FVec F S8x1024 .f32) (main_arg17 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S2048x16 : Shape := ⟨2, ![2048, 16]⟩
abbrev S16 : Shape := ⟨1, ![16]⟩
abbrev S16x8 : Shape := ⟨2, ![16, 8]⟩
abbrev S8 : Shape := ⟨1, ![8]⟩
abbrev S8x1024 : Shape := ⟨2, ![8, 1024]⟩
abbrev S1x1024 : Shape := ⟨2, ![1, 1024]⟩
abbrev S1024x16 : Shape := ⟨2, ![1024, 16]⟩
abbrev S1x16 : Shape := ⟨2, ![1, 16]⟩
abbrev S1x8 : Shape := ⟨2, ![1, 8]⟩
abbrev S256x1024 : Shape := ⟨2, ![256, 1024]⟩
abbrev S256x16 : Shape := ⟨2, ![256, 16]⟩
abbrev S256x8 : Shape := ⟨2, ![256, 8]⟩

abbrev nBuf : Space → Nat
  | .hbm => 39
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S2048x16, .f32⟩
  | .hbm, ⟨13, _⟩ => ⟨S16, .f32⟩
  | .hbm, ⟨14, _⟩ => ⟨S16x8, .f32⟩
  | .hbm, ⟨15, _⟩ => ⟨S8, .f32⟩
  | .hbm, ⟨16, _⟩ => ⟨S8x1024, .f32⟩
  | .hbm, ⟨17, _⟩ => ⟨S1024, .f32⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1024x16, .f32⟩
  | .hbm, ⟨28, _⟩ => ⟨S1024x16, .bf16⟩
  | .hbm, ⟨29, _⟩ => ⟨S1024x16, .f32⟩
  | .hbm, ⟨30, _⟩ => ⟨S1024x16, .bf16⟩
  | .hbm, ⟨31, _⟩ => ⟨S1x16, .f32⟩
  | .hbm, ⟨32, _⟩ => ⟨S16x8, .bf16⟩
  | .hbm, ⟨33, _⟩ => ⟨S1x8, .f32⟩
  | .hbm, ⟨34, _⟩ => ⟨S8x1024, .bf16⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x16, .bf16⟩
  | .local _ .vmem, ⟨16, _⟩ => ⟨S1024x16, .bf16⟩
  | .local _ .vmem, ⟨17, _⟩ => ⟨S1x16, .f32⟩
  | .local _ .vmem, ⟨18, _⟩ => ⟨S16x8, .bf16⟩
  | .local _ .vmem, ⟨19, _⟩ => ⟨S1x8, .f32⟩
  | .local _ .vmem, ⟨20, _⟩ => ⟨S8x1024, .bf16⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v18_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x16 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x16 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x8 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  bitsLt_bf16_f32 : FTy.bits .bf16 < FTy.bits .f32
  shapeCasts_S1024_S1x1024 : S1024.ShapeCasts S1x1024
  slices_S2048x16_S1024x16_0_0 : S2048x16.Slices ![0, 0] S1024x16
  slices_S2048x16_S1024x16_1024_0 : S2048x16.Slices ![1024, 0] S1024x16
  shapeCasts_S16_S1x16 : S16.ShapeCasts S1x16
  shapeCasts_S8_S1x8 : S8.ShapeCasts S1x8
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S256x8 : S1x8.Broadcasts S256x8
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  dot_S256x1024_S1024x1024_S256x1024_1_0_0_1_n_n_wf : DotDims.WF S256x1024 S1024x1024 S256x1024 [1] [0] [0] [1] [] []
  dot_S256x1024_S1024x16_S256x16_1_0_0_1_n_n_wf : DotDims.WF S256x1024 S1024x16 S256x16 [1] [0] [0] [1] [] []
  dot_S256x16_S16x8_S256x8_1_0_0_1_n_n_wf : DotDims.WF S256x16 S16x8 S256x8 [1] [0] [0] [1] [] []
  dot_S256x8_S8x1024_S256x1024_1_0_0_1_n_n_wf : DotDims.WF S256x8 S8x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x16.size a ≤ S1024x16.size a
  hwx0_12 : ∀ i : grid0.Coords, EltTy.bits .bf16 = 32 ∨ (Rect.block (s := S1024x16) S1024x16.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x16.size a ≤ S1024x16.size a
  hwx0_13 : ∀ i : grid0.Coords, EltTy.bits .bf16 = 32 ∨ (Rect.block (s := S1024x16) S1024x16.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x16.size a ≤ S1x16.size a
  hwx0_14 : ∀ i : grid0.Coords, EltTy.bits .f32 = 32 ∨ (Rect.block (s := S1x16) S1x16.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S16x8.size a ≤ S16x8.size a
  hwx0_15 : ∀ i : grid0.Coords, EltTy.bits .bf16 = 32 ∨ (Rect.block (s := S16x8) S16x8.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x8.size a ≤ S1x8.size a
  hwx0_16 : ∀ i : grid0.Coords, EltTy.bits .f32 = 32 ∨ (Rect.block (s := S1x8) S1x8.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S8x1024.size a ≤ S8x1024.size a
  hwx0_17 : ∀ i : grid0.Coords, EltTy.bits .bf16 = 32 ∨ (Rect.block (s := S8x1024) S8x1024.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1024.size a ≤ S1x1024.size a
  hwx0_18 : ∀ i : grid0.Coords, EltTy.bits .f32 = 32 ∨ (Rect.block (s := S1x1024) S1x1024.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x1024.size a ≤ S8192x1024.size a
  hwx0_19 : ∀ i : grid0.Coords, EltTy.bits .f32 = 32 ∨ (Rect.block (s := S8192x1024) S256x1024.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S256x1024.size a ≤ S8192x1024.size a
  hwx0_20 : ∀ i : grid0.Coords, EltTy.bits .f32 = 32 ∨ (Rect.block (s := S8192x1024) S256x1024.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S256x1024.size a ≤ S8192x1024.size a
  hwx0_21 : ∀ i : grid0.Coords, EltTy.bits .f32 = 32 ∨ (Rect.block (s := S8192x1024) S256x1024.size (cc0_transform_21 i) (hinb0_21 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x16_S256x16_1_0_0_1_n_n : DotDims S256x1024 S1024x16 S256x16 where
  lhsContracting := [1]
  rhsContracting := [0]
  lhsNonContracting := [0]
  rhsNonContracting := [1]
  lhsBatch := []
  rhsBatch := []
  wf := dot_S256x1024_S1024x16_S256x16_1_0_0_1_n_n_wf
def dot_S256x16_S16x8_S256x8_1_0_0_1_n_n : DotDims S256x16 S16x8 S256x8 where
  lhsContracting := [1]
  rhsContracting := [0]
  lhsNonContracting := [0]
  rhsNonContracting := [1]
  lhsBatch := []
  rhsBatch := []
  wf := dot_S256x16_S16x8_S256x8_1_0_0_1_n_n_wf
def dot_S256x8_S8x1024_S256x1024_1_0_0_1_n_n : DotDims S256x8 S8x1024 S256x1024 where
  lhsContracting := [1]
  rhsContracting := [0]
  lhsNonContracting := [0]
  rhsNonContracting := [1]
  lhsBatch := []
  rhsBatch := []
  wf := dot_S256x8_S8x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1024x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1024x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v14) S16x8.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v15) S1x8.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v16) S8x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v17) S1x1024.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v18_0) S256x1024.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v18_1) S256x1024.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v18_2) S256x1024.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S2048x16 : Shape := ⟨2, ![2048, 16]⟩
abbrev S16 : Shape := ⟨1, ![16]⟩
abbrev S16x8 : Shape := ⟨2, ![16, 8]⟩
abbrev S8 : Shape := ⟨1, ![8]⟩
abbrev S8x1024 : Shape := ⟨2, ![8, 1024]⟩
abbrev S8192x2048 : Shape := ⟨2, ![8192, 2048]⟩
abbrev S8192x16 : Shape := ⟨2, ![8192, 16]⟩
abbrev S1x16 : Shape := ⟨2, ![1, 16]⟩
abbrev S_ : Shape := ⟨0, ![]⟩
abbrev S8192x8 : Shape := ⟨2, ![8192, 8]⟩
abbrev S1x8 : Shape := ⟨2, ![1, 8]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S2048x16, .f32⟩
  | .hbm, ⟨13, _⟩ => ⟨S16, .f32⟩
  | .hbm, ⟨14, _⟩ => ⟨S16x8, .f32⟩
  | .hbm, ⟨15, _⟩ => ⟨S8, .f32⟩
  | .hbm, ⟨16, _⟩ => ⟨S8x1024, .f32⟩
  | .hbm, ⟨17, _⟩ => ⟨S1024, .f32⟩
  | .hbm, ⟨18, _⟩ => ⟨S8192x2048, .f32⟩
  | .hbm, ⟨19, _⟩ => ⟨S8192x16, .f32⟩
  | .hbm, ⟨20, _⟩ => ⟨S1x16, .f32⟩
  | .hbm, ⟨21, _⟩ => ⟨S8192x16, .f32⟩
  | .hbm, ⟨22, _⟩ => ⟨S8192x16, .f32⟩
  | .hbm, ⟨23, _⟩ => ⟨S_, .f32⟩
  | .hbm, ⟨24, _⟩ => ⟨S8192x16, .f32⟩
  | .hbm, ⟨25, _⟩ => ⟨S8192x16, .f32⟩
  | .hbm, ⟨26, _⟩ => ⟨S8192x8, .f32⟩
  | .hbm, ⟨27, _⟩ => ⟨S1x8, .f32⟩
  | .hbm, ⟨28, _⟩ => ⟨S8192x8, .f32⟩
  | .hbm, ⟨29, _⟩ => ⟨S8192x8, .f32⟩
  | .hbm, ⟨30, _⟩ => ⟨S_, .f32⟩
  | .hbm, ⟨31, _⟩ => ⟨S8192x8, .f32⟩
  | .hbm, ⟨32, _⟩ => ⟨S8192x8, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_cst : Ref sig .tc := ⟨.hbm, 23, rfl⟩
abbrev main_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call1_cst : Ref sig .tc := ⟨.hbm, 30, rfl⟩
abbrev main_call1_v0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_cst_0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_1 : Ref sig .tc := ⟨.hbm, 53, rfl⟩
abbrev main_v29 : Ref sig .tc := ⟨.hbm, 54, rfl⟩
abbrev main_v30 : Ref sig .tc := ⟨.hbm, 55, rfl⟩
abbrev main_cst_2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_3 : Ref sig .tc := ⟨.hbm, 74, rfl⟩
abbrev main_v48 : Ref sig .tc := ⟨.hbm, 75, rfl⟩
abbrev main_v49 : Ref sig .tc := ⟨.hbm, 76, rfl⟩
abbrev main_cst_4 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S_S8192x8 : S_.BroadcastsInDim S8192x8 (![] : Fin 0 → Fin S8192x8.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x2048_S2048x16_S8192x16_1_0_0_1_n_n_wf : DotDims.WF S8192x2048 S2048x16 S8192x16 [1] [0] [0] [1] [] []
  dot_S8192x16_S16x8_S8192x8_1_0_0_1_n_n_wf : DotDims.WF S8192x16 S16x8 S8192x8 [1] [0] [0] [1] [] []
  dot_S8192x8_S8x1024_S8192x1024_1_0_0_1_n_n_wf : DotDims.WF S8192x8 S8x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x2048_S2048x16_S8192x16_1_0_0_1_n_n : DotDims S8192x2048 S2048x16 S8192x16 where
  lhsContracting := [1]
  rhsContracting := [0]
  lhsNonContracting := [0]
  rhsNonContracting := [1]
  lhsBatch := []
  rhsBatch := []
  wf := dot_S8192x2048_S2048x16_S8192x16_1_0_0_1_n_n_wf
def dot_S8192x16_S16x8_S8192x8_1_0_0_1_n_n : DotDims S8192x16 S16x8 S8192x8 where
  lhsContracting := [1]
  rhsContracting := [0]
  lhsNonContracting := [0]
  rhsNonContracting := [1]
  lhsBatch := []
  rhsBatch := []
  wf := dot_S8192x16_S16x8_S8192x8_1_0_0_1_n_n_wf
def dot_S8192x8_S8x1024_S8192x1024_1_0_0_1_n_n : DotDims S8192x8 S8x1024 S8192x1024 where
  lhsContracting := [1]
  rhsContracting := [0]
  lhsNonContracting := [0]
  rhsNonContracting := [1]
  lhsBatch := []
  rhsBatch := []
  wf := dot_S8192x8_S8x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Cell.lean ====
/-
  The mathematics of one LSTM step with a forget gate computed by a small perceptron, row by row.

  For one batch row, with input row `xr`, hidden row `hr` (both of length 1024) and the cell entry `cv` at column `q`:
    z₁ j = max (Σₖ xr k · w1a k j + Σₖ hr k · w1b k j + b1 j) 0            (16 hidden units)
    z₂ l = max (Σⱼ z₁ j · w2 j l + b2 l) 0                                 (8 hidden units)
    f q  = σ (Σₗ z₂ l · w3 l q + b3 q)
    i q  = σ (Σₖ hr k · whi k q + Σₖ xr k · wxi k q + bi q),   g q = tanh (…whc, wxc, bc…),   o q = σ (…who, wxo, bo…)
    c' q = f q · cv + i q · g q,     h' q = o q · tanh (c' q)
  over the extended reals, σ the logistic function. The weights enter through accessor functions of plain
  coordinates, so that the same row functions serve a program that holds a bias as a 1×n matrix and the first
  layer's matrix as two halves, and one that holds the bias as a vector and the matrix whole.

  The one algebraic law needed between the two programs is that a sum over 2048 terms is the sum over the first
  1024 plus the sum over the last 1024 (`sum_split`): addition on the extended reals is commutative and
  associative, so no finiteness is needed.
-/
import Idealize.ShloMosaic.PureOps.Ideal
import Idealize.ShloMosaic.PureOps.Ideal.Laws
import Idealize.ShloMosaic.Lib.ValueIdx
import Idealize.ShloMosaic.Lib.IdealHost

noncomputable section

namespace Cert.LstmCell

open Idealize.ShloMosaic Idealize.ShloMosaic.ValueIdx

/-- The f32 zero pattern, kept as a pattern: the threshold of both programs' rectifiers. -/
abbrev zeroF : EReal := Ideal.ofBits .f32 0x00000000#32

/-- Position `k` of the first half of a 2048-long axis. -/
abbrev lo (k : Fin 1024) : Fin 2048 := ⟨k.val, by omega⟩
/-- Position `k` of the second half of a 2048-long axis. -/
abbrev hi (k : Fin 1024) : Fin 2048 := ⟨1024 + k.val, by omega⟩

/-- A sum over 2048 positions is the sum over the first half plus the sum over the second half. -/
theorem sum_split (f : Fin 2048 → EReal) :
    ∑ k : Fin 2048, f k = (∑ k : Fin 1024, f (lo k)) + ∑ k : Fin 1024, f (hi k) := by
  have h := Fin.sum_univ_add (M := EReal) (a := 1024) (b := 1024) f
  exact h

/-- A gate's pre-activation at column `q`: the hidden row through `wh`, plus the input row through `wx`, plus the bias. -/
def gate (wh wx : Fin 1024 → Fin 1024 → EReal) (b : Fin 1024 → EReal) (hr xr : Fin 1024 → EReal) (q : Fin 1024) : EReal :=
  (∑ k : Fin 1024, hr k * wh k q) + (∑ k : Fin 1024, xr k * wx k q) + b q

/-- The perceptron's first hidden layer: the input row through the first half of the matrix, plus the hidden row
    through the second half, plus the bias, rectified. -/
def hid1 (w1a w1b : Fin 1024 → Fin 16 → EReal) (b1 : Fin 16 → EReal) (xr hr : Fin 1024 → EReal) (j : Fin 16) : EReal :=
  max ((∑ k : Fin 1024, xr k * w1a k j) + (∑ k : Fin 1024, hr k * w1b k j) + b1 j) zeroF

/-- The second hidden layer, rectified. -/
def hid2 (w2 : Fin 16 → Fin 8 → EReal) (b2 : Fin 8 → EReal) (z1 : Fin 16 → EReal) (l : Fin 8) : EReal :=
  max ((∑ j : Fin 16, z1 j * w2 j l) + b2 l) zeroF

/-- The perceptron's output before the logistic function. -/
def fpre (w3 : Fin 8 → Fin 1024 → EReal) (b3 : Fin 1024 → EReal) (z2 : Fin 8 → EReal) (q : Fin 1024) : EReal :=
  (∑ l : Fin 8, z2 l * w3 l q) + b3 q

/-- All the weights of the step, as functions of plain coordinates. -/
structure Wts where
  whi : Fin 1024 → Fin 1024 → EReal
  wxi : Fin 1024 → Fin 1024 → EReal
  bi : Fin 1024 → EReal
  whc : Fin 1024 → Fin 1024 → EReal
  wxc : Fin 1024 → Fin 1024 → EReal
  bc : Fin 1024 → EReal
  who : Fin 1024 → Fin 1024 → EReal
  wxo : Fin 1024 → Fin 1024 → EReal
  bo : Fin 1024 → EReal
  w1a : Fin 1024 → Fin 16 → EReal
  w1b : Fin 1024 → Fin 16 → EReal
  b1 : Fin 16 → EReal
  w2 : Fin 16 → Fin 8 → EReal
  b2 : Fin 8 → EReal
  w3 : Fin 8 → Fin 1024 → EReal
  b3 : Fin 1024 → EReal

/-- The forget gate of a row at column `q`. -/
def Wts.f (W : Wts) (xr hr : Fin 1024 → EReal) (q : Fin 1024) : EReal :=
  Ideal.logistic (fpre W.w3 W.b3 (hid2 W.w2 W.b2 (hid1 W.w1a W.w1b W.b1 xr hr)) q)

/-- The new cell entry of a row at column `q`, from the old entry `cv`. -/
def Wts.c (W : Wts) (xr hr : Fin 1024 → EReal) (cv : EReal) (q : Fin 1024) : EReal :=
  W.f xr hr q * cv + Ideal.logistic (gate W.whi W.wxi W.bi hr xr q) * Ideal.tanh (gate W.whc W.wxc W.bc hr xr q)

/-- The new hidden entry of a row at column `q`. -/
def Wts.h (W : Wts) (xr hr : Fin 1024 → EReal) (cv : EReal) (q : Fin 1024) : EReal :=
  Ideal.logistic (gate W.who W.wxo W.bo hr xr q) * Ideal.tanh (W.c xr hr cv q)

/-- The weights as the argument arrays hold them: matrices whole, biases as vectors, the first layer's matrix
    read in two halves of 1024 rows. -/
def ofArrays (Whi Wxi : (⟨2, ![1024, 1024]⟩ : Shape).Idx → EReal) (bi : (⟨1, ![1024]⟩ : Shape).Idx → EReal)
    (Whc Wxc : (⟨2, ![1024, 1024]⟩ : Shape).Idx → EReal) (bc : (⟨1, ![1024]⟩ : Shape).Idx → EReal)
    (Who Wxo : (⟨2, ![1024, 1024]⟩ : Shape).Idx → EReal) (bo : (⟨1, ![1024]⟩ : Shape).Idx → EReal)
    (W1 : (⟨2, ![2048, 16]⟩ : Shape).Idx → EReal) (b1 : (⟨1, ![16]⟩ : Shape).Idx → EReal)
    (W2 : (⟨2, ![16, 8]⟩ : Shape).Idx → EReal) (b2 : (⟨1, ![8]⟩ : Shape).Idx → EReal)
    (W3 : (⟨2, ![8, 1024]⟩ : Shape).Idx → EReal) (b3 : (⟨1, ![1024]⟩ : Shape).Idx → EReal) : Wts where
  whi := fun k q => Whi (ix2 k q)
  wxi := fun k q => Wxi (ix2 k q)
  bi := fun q => bi (ix1 q)
  whc := fun k q => Whc (ix2 k q)
  wxc := fun k q => Wxc (ix2 k q)
  bc := fun q => bc (ix1 q)
  who := fun k q => Who (ix2 k q)
  wxo := fun k q => Wxo (ix2 k q)
  bo := fun q => bo (ix1 q)
  w1a := fun k j => W1 (ix2 (lo k) j)
  w1b := fun k j => W1 (ix2 (hi k) j)
  b1 := fun j => b1 (ix1 j)
  w2 := fun j l => W2 (ix2 j l)
  b2 := fun l => b2 (ix1 l)
  w3 := fun l q => W3 (ix2 l q)
  b3 := fun q => b3 (ix1 q)

/-- Row `r` of a matrix of 1024 columns. -/
abbrev rowOf {R : Nat} (a : (⟨2, ![R, 1024]⟩ : Shape).Idx → EReal) (r : Fin R) : Fin 1024 → EReal := fun k => a (ix2 r k)

/-- The forget-gate array: entry (r, q) is the forget gate of row r of the two inputs at column q. -/
def Fgate {R : Nat} (W : Wts) (x h : (⟨2, ![R, 1024]⟩ : Shape).Idx → EReal) : (⟨2, ![R, 1024]⟩ : Shape).Idx → EReal :=
  fun i => W.f (rowOf x (i 0)) (rowOf h (i 0)) (i 1)

/-- The new cell array. -/
def Cnew {R : Nat} (W : Wts) (x h c : (⟨2, ![R, 1024]⟩ : Shape).Idx → EReal) : (⟨2, ![R, 1024]⟩ : Shape).Idx → EReal :=
  fun i => W.c (rowOf x (i 0)) (rowOf h (i 0)) (c i) (i 1)

/-- The new hidden array. -/
def Hnew {R : Nat} (W : Wts) (x h c : (⟨2, ![R, 1024]⟩ : Shape).Idx → EReal) : (⟨2, ![R, 1024]⟩ : Shape).Idx → EReal :=
  fun i => W.h (rowOf x (i 0)) (rowOf h (i 0)) (c i) (i 1)

/-- The logistic function spelled with the f32 pattern of one, a negation, an exponential, a sum and a quotient. -/
theorem logistic_spelled (x : EReal) :
    Ideal.div (Ideal.ofBits .f32 0x3F800000#32) (Ideal.ofBits .f32 0x3F800000#32 + Ideal.exp (-x)) = Ideal.logistic x := by
  rw [Ideal.ofBits_one_f32]
  rfl

end Cert.LstmCell

end
-- ==== Proof.LibMatmul.lean ====
/-
  A matrix product into a zero accumulator, read at an output entry, for ANY dimension record of a plain
  rows × contraction by contraction × columns product over rank-2 operands.

  The record is a variable; what is asked of it are the four coordinate facts every such record has (the output's
  row is the left operand's row, the contraction coordinate is the left operand's column and the right operand's row,
  the output's column is the right operand's column), one contracted axis, and its extent. Under those, entry
  (p, q) of the product is  Σₖ a(p, k) · w(k, q)  over the extended reals.
-/
import Idealize.ShloMosaic.PureOps.Ideal.Laws
import Idealize.ShloMosaic.Lib.ValueIdx

noncomputable section

namespace Cert.LibMatmul

open Idealize.ShloMosaic Idealize.ShloMosaic.ValueIdx

/-- Entry (p, q) of `a · w` accumulated into zero is the sum over the contraction coordinate `k` of
    `a (p, k) * w (k, q)`: the record's contraction index is re-indexed by its one coordinate. -/
theorem matmul_zero_apply {M K N : Nat} {φ₁ φ₂ : FTy}
    (D : DotDims (⟨2, ![M, K]⟩ : Shape) (⟨2, ![K, N]⟩ : Shape) (⟨2, ![M, N]⟩ : Shape))
    (prec : Option ContractPrecision)
    (hr : D.contr.rank = 1) (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (a : FVec Ideal (⟨2, ![M, K]⟩ : Shape) φ₁) (w : FVec Ideal (⟨2, ![K, N]⟩ : Shape) φ₂) (p : Fin M) (q : Fin N) :
    FloatOps.matmul D prec a w (constant (⟨2, ![M, N]⟩ : Shape) .f32 0x00000000#32) (ix2 p q)
      = ∑ k : Fin K, a (ix2 p k) * w (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun b => Fin.ext (by
    match b with
    | ⟨0, _⟩ => exact hl0 _ _
    | ⟨1, _⟩ => exact (hl1 _ _).trans hk)
  have er : D.rhsIdx (ix2 p q) ((contrEquiv1 D K hr hs).symm k) = ix2 k q := funext fun b => Fin.ext (by
    match b with
    | ⟨0, _⟩ => exact (hr0 _ _).trans hk
    | ⟨1, _⟩ => exact hr1 _ _)
  rw [el, er]

end Cert.LibMatmul

end
-- ==== Proof.Block.lean ====
/-
  The kernel body's three stored values, read at an entry (p, q) of the 256 × 1024 output block, are the LSTM
  step's row functions (Proof/Cell.lean) of row p of the input blocks and of the weight blocks as loaded.

  The body computes, from the loaded blocks x (input rows), h (hidden rows), c (cell rows) and the weights,
    three gates  σ / tanh (h·W_h + x·W_x + b)  — each product a matrix product into a zero accumulator, the bias a
    1 × 1024 row broadcast down the rows —,
    the perceptron  σ (relu (relu (x·W1a + h·W1b + b1)·W2 + b2)·W3 + b3),
    c' = f·c + i·g  and  h' = o·tanh c'.
  At the ideal values a change of float format is the identity, so the bf16 copies of x, h and of the hidden
  layers read as the values themselves. Each matrix product at (p, q) is the plain sum over the contraction
  coordinate (Proof/LibMatmul.lean), a broadcast row reads its entry (0, q), and the pointwise operations read
  entry by entry: so each stored value at (p, q) is the row function at column q.
-/
import proofs.«130329_j70411693851113_1_alg».proof.Proof.Gen.KernelIdeal.Skeleton
import proofs.«130329_j70411693851113_1_alg».proof.Proof.Cell
import proofs.«130329_j70411693851113_1_alg».proof.Proof.LibMatmul
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.LstmCell

/-! ## The four matrix products at an entry -/

/-- [256, 1024] · [1024, 1024] into zero, at (p, q). -/
theorem mm_wide (a : FVec Ideal S256x1024 .bf16) (w : FVec Ideal S1024x1024 .bf16) (p : Fin 256) (q : Fin 1024) :
    matmul dot_S256x1024_S1024x1024_S256x1024_1_0_0_1_n_n none a w (constant S256x1024 .f32 0x00000000#32) (ix2 p q)
      = ∑ k : Fin 1024, a (ix2 p k) * w (ix2 k q) :=
  Cert.LibMatmul.matmul_zero_apply dot_S256x1024_S1024x1024_S256x1024_1_0_0_1_n_n none rfl rfl
    (fun i c => by
      unfold DotDims.lhsIdx
      rw [dif_neg (show ¬(0 : Fin S256x1024.rank) ∈ dot_S256x1024_S1024x1024_S256x1024_1_0_0_1_n_n.lhsBatch by decide),
        dif_pos (show (0 : Fin S256x1024.rank) ∈ dot_S256x1024_S1024x1024_S256x1024_1_0_0_1_n_n.lhsNonContracting by decide)]
      rfl)
    (fun i c => dot_S256x1024_S1024x1024_S256x1024_1_0_0_1_n_n.lhsIdx_val_of_single rfl i c)
    (fun i c => dot_S256x1024_S1024x1024_S256x1024_1_0_0_1_n_n.rhsIdx_val_of_single rfl i c)
    (fun i c => by
      unfold DotDims.rhsIdx
      rw [dif_neg (show ¬(1 : Fin S1024x1024.rank) ∈ dot_S256x1024_S1024x1024_S256x1024_1_0_0_1_n_n.rhsBatch by decide),
        dif_pos (show (1 : Fin S1024x1024.rank) ∈ dot_S256x1024_S1024x1024_S256x1024_1_0_0_1_n_n.rhsNonContracting by decide)]
      rfl)
    a w p q

/-- [256, 1024] · [1024, 16] into zero, at (p, j). -/
theorem mm_in16 (a : FVec Ideal S256x1024 .bf16) (w : FVec Ideal S1024x16 .bf16) (p : Fin 256) (j : Fin 16) :
    matmul dot_S256x1024_S1024x16_S256x16_1_0_0_1_n_n none a w (constant S256x16 .f32 0x00000000#32) (ix2 p j)
      = ∑ k : Fin 1024, a (ix2 p k) * w (ix2 k j) :=
  Cert.LibMatmul.matmul_zero_apply dot_S256x1024_S1024x16_S256x16_1_0_0_1_n_n none rfl rfl
    (fun i c => by
      unfold DotDims.lhsIdx
      rw [dif_neg (show ¬(0 : Fin S256x1024.rank) ∈ dot_S256x1024_S1024x16_S256x16_1_0_0_1_n_n.lhsBatch by decide),
        dif_pos (show (0 : Fin S256x1024.rank) ∈ dot_S256x1024_S1024x16_S256x16_1_0_0_1_n_n.lhsNonContracting by decide)]
      rfl)
    (fun i c => dot_S256x1024_S1024x16_S256x16_1_0_0_1_n_n.lhsIdx_val_of_single rfl i c)
    (fun i c => dot_S256x1024_S1024x16_S256x16_1_0_0_1_n_n.rhsIdx_val_of_single rfl i c)
    (fun i c => by
      unfold DotDims.rhsIdx
      rw [dif_neg (show ¬(1 : Fin S1024x16.rank) ∈ dot_S256x1024_S1024x16_S256x16_1_0_0_1_n_n.rhsBatch by decide),
        dif_pos (show (1 : Fin S1024x16.rank) ∈ dot_S256x1024_S1024x16_S256x16_1_0_0_1_n_n.rhsNonContracting by decide)]
      rfl)
    a w p j

/-- [256, 16] · [16, 8] into zero, at (p, l). -/
theorem mm_16to8 (a : FVec Ideal S256x16 .bf16) (w : FVec Ideal S16x8 .bf16) (p : Fin 256) (l : Fin 8) :
    matmul dot_S256x16_S16x8_S256x8_1_0_0_1_n_n none a w (constant S256x8 .f32 0x00000000#32) (ix2 p l)
      = ∑ j : Fin 16, a (ix2 p j) * w (ix2 j l) :=
  Cert.LibMatmul.matmul_zero_apply dot_S256x16_S16x8_S256x8_1_0_0_1_n_n none rfl rfl
    (fun i c => by
      unfold DotDims.lhsIdx
      rw [dif_neg (show ¬(0 : Fin S256x16.rank) ∈ dot_S256x16_S16x8_S256x8_1_0_0_1_n_n.lhsBatch by decide),
        dif_pos (show (0 : Fin S256x16.rank) ∈ dot_S256x16_S16x8_S256x8_1_0_0_1_n_n.lhsNonContracting by decide)]
      rfl)
    (fun i c => dot_S256x16_S16x8_S256x8_1_0_0_1_n_n.lhsIdx_val_of_single rfl i c)
    (fun i c => dot_S256x16_S16x8_S256x8_1_0_0_1_n_n.rhsIdx_val_of_single rfl i c)
    (fun i c => by
      unfold DotDims.rhsIdx
      rw [dif_neg (show ¬(1 : Fin S16x8.rank) ∈ dot_S256x16_S16x8_S256x8_1_0_0_1_n_n.rhsBatch by decide),
        dif_pos (show (1 : Fin S16x8.rank) ∈ dot_S256x16_S16x8_S256x8_1_0_0_1_n_n.rhsNonContracting by decide)]
      rfl)
    a w p l

/-- [256, 8] · [8, 1024] into zero, at (p, q). -/
theorem mm_8out (a : FVec Ideal S256x8 .bf16) (w : FVec Ideal S8x1024 .bf16) (p : Fin 256) (q : Fin 1024) :
    matmul dot_S256x8_S8x1024_S256x1024_1_0_0_1_n_n none a w (constant S256x1024 .f32 0x00000000#32) (ix2 p q)
      = ∑ l : Fin 8, a (ix2 p l) * w (ix2 l q) :=
  Cert.LibMatmul.matmul_zero_apply dot_S256x8_S8x1024_S256x1024_1_0_0_1_n_n none rfl rfl
    (fun i c => by
      unfold DotDims.lhsIdx
      rw [dif_neg (show ¬(0 : Fin S256x8.rank) ∈ dot_S256x8_S8x1024_S256x1024_1_0_0_1_n_n.lhsBatch by decide),
        dif_pos (show (0 : Fin S256x8.rank) ∈ dot_S256x8_S8x1024_S256x1024_1_0_0_1_n_n.lhsNonContracting by decide)]
      rfl)
    (fun i c => dot_S256x8_S8x1024_S256x1024_1_0_0_1_n_n.lhsIdx_val_of_single rfl i c)
    (fun i c => dot_S256x8_S8x1024_S256x1024_1_0_0_1_n_n.rhsIdx_val_of_single rfl i c)
    (fun i c => by
      unfold DotDims.rhsIdx
      rw [dif_neg (show ¬(1 : Fin S8x1024.rank) ∈ dot_S256x8_S8x1024_S256x1024_1_0_0_1_n_n.rhsBatch by decide),
        dif_pos (show (1 : Fin S8x1024.rank) ∈ dot_S256x8_S8x1024_S256x1024_1_0_0_1_n_n.rhsNonContracting by decide)]
      rfl)
    a w p q

/-! ## A bias row broadcast down the rows reads its entry (0, column) -/

theorem bias1024 (b : FVec Ideal S1x1024 .f32) (p : Fin 256) (q : Fin 1024) :
    broadcastTo S256x1024 (shapeCast S1x1024 b shapeCasts_S1x1024_S1x1024) broadcasts_S1x1024_S256x1024 (ix2 p q)
      = b (ix2 0 q) := by
  rw [shapeCast_self]
  exact broadcastTo_apply b broadcasts_S1x1024_S256x1024 (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])

theorem bias16 (b : FVec Ideal S1x16 .f32) (p : Fin 256) (j : Fin 16) :
    broadcastTo S256x16 (shapeCast S1x16 b shapeCasts_S1x16_S1x16) broadcasts_S1x16_S256x16 (ix2 p j)
      = b (ix2 0 j) := by
  rw [shapeCast_self]
  exact broadcastTo_apply b broadcasts_S1x16_S256x16 (ix2 p j) (ix2 0 j) (fun a => match a with
    | ⟨0, _⟩ => by show 0 = if (1 : Nat) = 1 then 0 else p.val; rw [if_pos rfl]
    | ⟨1, _⟩ => by show j.val = if (16 : Nat) = 1 then 0 else j.val; rw [if_neg (by decide)])

theorem bias8 (b : FVec Ideal S1x8 .f32) (p : Fin 256) (l : Fin 8) :
    broadcastTo S256x8 (shapeCast S1x8 b shapeCasts_S1x8_S1x8) broadcasts_S1x8_S256x8 (ix2 p l)
      = b (ix2 0 l) := by
  rw [shapeCast_self]
  exact broadcastTo_apply b broadcasts_S1x8_S256x8 (ix2 p l) (ix2 0 l) (fun a => match a with
    | ⟨0, _⟩ => by show 0 = if (1 : Nat) = 1 then 0 else p.val; rw [if_pos rfl]
    | ⟨1, _⟩ => by show l.val = if (8 : Nat) = 1 then 0 else l.val; rw [if_neg (by decide)])

/-! ## The weights as the body loads them -/

/-- The weight blocks as accessor functions: matrices by (row, column), each bias at (0, column) of its 1 × n block,
    the perceptron's first matrix as the two loaded halves. -/
def blkW (x3 x4 : FVec Ideal S1024x1024 .bf16) (x5 : FVec Ideal S1x1024 .f32)
    (x6 x7 : FVec Ideal S1024x1024 .bf16) (x8 : FVec Ideal S1x1024 .f32)
    (x9 x10 : FVec Ideal S1024x1024 .bf16) (x11 : FVec Ideal S1x1024 .f32)
    (x12 x13 : FVec Ideal S1024x16 .bf16) (x14 : FVec Ideal S1x16 .f32)
    (x15 : FVec Ideal S16x8 .bf16) (x16 : FVec Ideal S1x8 .f32)
    (x17 : FVec Ideal S8x1024 .bf16) (x18 : FVec Ideal S1x1024 .f32) : Wts where
  whi := fun k q => x3 (ix2 k q)
  wxi := fun k q => x4 (ix2 k q)
  bi := fun q => x5 (ix2 0 q)
  whc := fun k q => x6 (ix2 k q)
  wxc := fun k q => x7 (ix2 k q)
  bc := fun q => x8 (ix2 0 q)
  who := fun k q => x9 (ix2 k q)
  wxo := fun k q => x10 (ix2 k q)
  bo := fun q => x11 (ix2 0 q)
  w1a := fun k j => x12 (ix2 k j)
  w1b := fun k j => x13 (ix2 k j)
  b1 := fun j => x14 (ix2 0 j)
  w2 := fun j l => x15 (ix2 j l)
  b2 := fun l => x16 (ix2 0 l)
  w3 := fun l q => x17 (ix2 l q)
  b3 := fun q => x18 (ix2 0 q)

/-! ## The body's sub-expressions at an entry -/

/-- A gate's pre-activation: hidden rows through `wh`, plus input rows through `wx`, plus the broadcast bias. -/
theorem gate_at (ah ax : FVec Ideal S256x1024 .bf16) (wh wx : FVec Ideal S1024x1024 .bf16) (b : FVec Ideal S1x1024 .f32)
    (p : Fin 256) (q : Fin 1024) :
    addf (addf (matmul dot_S256x1024_S1024x1024_S256x1024_1_0_0_1_n_n none ah (shapeCast S1024x1024 wh shapeCasts_S1024x1024_S1024x1024) (constant S256x1024 .f32 0x00000000#32))
               (matmul dot_S256x1024_S1024x1024_S256x1024_1_0_0_1_n_n none ax (shapeCast S1024x1024 wx shapeCasts_S1024x1024_S1024x1024) (constant S256x1024 .f32 0x00000000#32)))
         (broadcastTo S256x1024 (shapeCast S1x1024 b shapeCasts_S1x1024_S1x1024) broadcasts_S1x1024_S256x1024) (ix2 p q)
      = gate (fun k q => wh (ix2 k q)) (fun k q => wx (ix2 k q)) (fun q => b (ix2 0 q))
          (fun k => ah (ix2 p k)) (fun k => ax (ix2 p k)) q := by
  rw [addf_apply, addf_apply, bias1024, shapeCast_self, shapeCast_self, mm_wide, mm_wide]
  rfl

/-- The perceptron's first hidden layer (in its bf16 copy, the same values). -/
theorem hid1_at (ax ah : FVec Ideal S256x1024 .bf16) (w1a w1b : FVec Ideal S1024x16 .bf16) (b1 : FVec Ideal S1x16 .f32)
    (p : Fin 256) (j : Fin 16) :
    (truncf .bf16 (maximumf (addf (addf (matmul dot_S256x1024_S1024x16_S256x16_1_0_0_1_n_n none ax (shapeCast S1024x16 w1a shapeCasts_S1024x16_S1024x16) (constant S256x16 .f32 0x00000000#32))
                                        (matmul dot_S256x1024_S1024x16_S256x16_1_0_0_1_n_n none ah (shapeCast S1024x16 w1b shapeCasts_S1024x16_S1024x16) (constant S256x16 .f32 0x00000000#32)))
                                  (broadcastTo S256x16 (shapeCast S1x16 b1 shapeCasts_S1x16_S1x16) broadcasts_S1x16_S256x16))
                            (broadcast S256x16 (Scalar.ofBits .f32 0x00000000#32))) bitsLt_bf16_f32 : FVec Ideal S256x16 .bf16) (ix2 p j)
      = hid1 (fun k j => w1a (ix2 k j)) (fun k j => w1b (ix2 k j)) (fun j => b1 (ix2 0 j))
          (fun k => ax (ix2 p k)) (fun k => ah (ix2 p k)) j := by
  rw [truncf_apply, maximumf_apply, addf_apply, addf_apply, bias16, shapeCast_self, shapeCast_self, mm_in16, mm_in16]
  rfl

/-- The second hidden layer (in its bf16 copy). -/
theorem hid2_at (z1 : FVec Ideal S256x16 .bf16) (w2 : FVec Ideal S16x8 .bf16) (b2 : FVec Ideal S1x8 .f32)
    (p : Fin 256) (l : Fin 8) :
    (truncf .bf16 (maximumf (addf (matmul dot_S256x16_S16x8_S256x8_1_0_0_1_n_n none z1 (shapeCast S16x8 w2 shapeCasts_S16x8_S16x8) (constant S256x8 .f32 0x00000000#32))
                                  (broadcastTo S256x8 (shapeCast S1x8 b2 shapeCasts_S1x8_S1x8) broadcasts_S1x8_S256x8))
                            (broadcast S256x8 (Scalar.ofBits .f32 0x00000000#32))) bitsLt_bf16_f32 : FVec Ideal S256x8 .bf16) (ix2 p l)
      = hid2 (fun j l => w2 (ix2 j l)) (fun l => b2 (ix2 0 l)) (fun j => z1 (ix2 p j)) l := by
  rw [truncf_apply, maximumf_apply, addf_apply, bias8, shapeCast_self, mm_16to8]
  rfl

/-- The perceptron's output before the logistic function. -/
theorem fpre_at (z2 : FVec Ideal S256x8 .bf16) (w3 : FVec Ideal S8x1024 .bf16) (b3 : FVec Ideal S1x1024 .f32)
    (p : Fin 256) (q : Fin 1024) :
    addf (matmul dot_S256x8_S8x1024_S256x1024_1_0_0_1_n_n none z2 (shapeCast S8x1024 w3 shapeCasts_S8x1024_S8x1024) (constant S256x1024 .f32 0x00000000#32))
         (broadcastTo S256x1024 (shapeCast S1x1024 b3 shapeCasts_S1x1024_S1x1024) broadcasts_S1x1024_S256x1024) (ix2 p q)
      = fpre (fun l q => w3 (ix2 l q)) (fun q => b3 (ix2 0 q)) (fun l => z2 (ix2 p l)) q := by
  rw [addf_apply, bias1024, shapeCast_self, mm_8out]
  rfl

/-! ## The three stored values at an entry -/

/-- The input gate's value: the logistic function of its pre-activation. -/
theorem igate_at (x0 x1 : FVec Ideal S256x1024 .f32) (wh wx : FVec Ideal S1024x1024 .bf16) (b : FVec Ideal S1x1024 .f32)
    (p : Fin 256) (q : Fin 1024) :
    k0_pay6 (F := Ideal) x0 x1 wh wx b (ix2 p q)
      = Ideal.logistic (gate (fun k q => wh (ix2 k q)) (fun k q => wx (ix2 k q)) (fun q => b (ix2 0 q)) (rowOf x1 p) (rowOf x0 p) q) := by
  unfold k0_pay6 k0_pay4 k0_pay5
  exact congrArg Ideal.logistic (gate_at (truncf .bf16 x1 bitsLt_bf16_f32) (truncf .bf16 x0 bitsLt_bf16_f32) wh wx b p q)

/-- The candidate's value: the hyperbolic tangent of its pre-activation. -/
theorem cand_at (x0 x1 : FVec Ideal S256x1024 .f32) (wh wx : FVec Ideal S1024x1024 .bf16) (b : FVec Ideal S1x1024 .f32)
    (p : Fin 256) (q : Fin 1024) :
    k0_pay7 (F := Ideal) x0 x1 wh wx b (ix2 p q)
      = Ideal.tanh (gate (fun k q => wh (ix2 k q)) (fun k q => wx (ix2 k q)) (fun q => b (ix2 0 q)) (rowOf x1 p) (rowOf x0 p) q) := by
  unfold k0_pay7 k0_pay4 k0_pay5
  exact congrArg Ideal.tanh (gate_at (truncf .bf16 x1 bitsLt_bf16_f32) (truncf .bf16 x0 bitsLt_bf16_f32) wh wx b p q)

/-- The output gate's value (its hidden-rows product is computed ahead of the rest of the sum). -/
theorem ogate_at (x0 x1 : FVec Ideal S256x1024 .f32) (wh wx : FVec Ideal S1024x1024 .bf16) (b : FVec Ideal S1x1024 .f32)
    (p : Fin 256) (q : Fin 1024) :
    k0_pay9 (F := Ideal) (k0_pay4 x0) (k0_pay8 x1 wh) wx b (ix2 p q)
      = Ideal.logistic (gate (fun k q => wh (ix2 k q)) (fun k q => wx (ix2 k q)) (fun q => b (ix2 0 q)) (rowOf x1 p) (rowOf x0 p) q) := by
  unfold k0_pay9 k0_pay8 k0_pay4 k0_pay5
  exact congrArg Ideal.logistic (gate_at (truncf .bf16 x1 bitsLt_bf16_f32) (truncf .bf16 x0 bitsLt_bf16_f32) wh wx b p q)

/-- The forget gate at (p, q): the perceptron of row p of the input and hidden blocks, through the logistic function. -/
theorem forget_at (x0 x1 x2 : FVec Ideal S256x1024 .f32) (x3 x4 : FVec Ideal S1024x1024 .bf16) (x5 : FVec Ideal S1x1024 .f32)
    (x6 x7 : FVec Ideal S1024x1024 .bf16) (x8 : FVec Ideal S1x1024 .f32)
    (x9 x10 : FVec Ideal S1024x1024 .bf16) (x11 : FVec Ideal S1x1024 .f32)
    (x12 x13 : FVec Ideal S1024x16 .bf16) (x14 : FVec Ideal S1x16 .f32)
    (x15 : FVec Ideal S16x8 .bf16) (x16 : FVec Ideal S1x8 .f32)
    (x17 : FVec Ideal S8x1024 .bf16) (x18 : FVec Ideal S1x1024 .f32)
    (p : Fin 256) (q : Fin 1024) :
    k0_pay1 (F := Ideal) (k0_pay10 (k0_pay4 x0) (k0_pay5 x1) x12 x13 x14 x15 x16 x17) x18 (ix2 p q)
      = (blkW x3 x4 x5 x6 x7 x8 x9 x10 x11 x12 x13 x14 x15 x16 x17 x18).f (rowOf x0 p) (rowOf x1 p) q := by
  unfold k0_pay1 k0_pay10 k0_pay4 k0_pay5
  refine congrArg Ideal.logistic ((fpre_at _ x17 x18 p q).trans ?_)
  refine congrArg (fun z => fpre (fun l q => x17 (ix2 l q)) (fun q => x18 (ix2 0 q)) z q) (funext fun l => ?_)
  refine (hid2_at _ x15 x16 p l).trans ?_
  refine congrArg (fun z => hid2 (fun j l => x15 (ix2 j l)) (fun l => x16 (ix2 0 l)) z l) (funext fun j => ?_)
  exact hid1_at (truncf .bf16 x0 bitsLt_bf16_f32) (truncf .bf16 x1 bitsLt_bf16_f32) x12 x13 x14 p j

/-- The new cell entry at (p, q): forget gate times the old entry, plus input gate times candidate. -/
theorem cell_at (x0 x1 x2 : FVec Ideal S256x1024 .f32) (x3 x4 : FVec Ideal S1024x1024 .bf16) (x5 : FVec Ideal S1x1024 .f32)
    (x6 x7 : FVec Ideal S1024x1024 .bf16) (x8 : FVec Ideal S1x1024 .f32)
    (x9 x10 : FVec Ideal S1024x1024 .bf16) (x11 : FVec Ideal S1x1024 .f32)
    (x12 x13 : FVec Ideal S1024x16 .bf16) (x14 : FVec Ideal S1x16 .f32)
    (x15 : FVec Ideal S16x8 .bf16) (x16 : FVec Ideal S1x8 .f32)
    (x17 : FVec Ideal S8x1024 .bf16) (x18 : FVec Ideal S1x1024 .f32)
    (p : Fin 256) (q : Fin 1024) :
    k0_pay2 (F := Ideal) x2 (k0_pay6 x0 x1 x3 x4 x5) (k0_pay7 x0 x1 x6 x7 x8)
        (k0_pay10 (k0_pay4 x0) (k0_pay5 x1) x12 x13 x14 x15 x16 x17) x18 (ix2 p q)
      = (blkW x3 x4 x5 x6 x7 x8 x9 x10 x11 x12 x13 x14 x15 x16 x17 x18).c (rowOf x0 p) (rowOf x1 p) (x2 (ix2 p q)) q := by
  unfold k0_pay2
  show k0_pay1 (F := Ideal) (k0_pay10 (k0_pay4 x0) (k0_pay5 x1) x12 x13 x14 x15 x16 x17) x18 (ix2 p q) * x2 (ix2 p q)
      + k0_pay6 (F := Ideal) x0 x1 x3 x4 x5 (ix2 p q) * k0_pay7 (F := Ideal) x0 x1 x6 x7 x8 (ix2 p q) = _
  rw [forget_at x0 x1 x2 x3 x4 x5 x6 x7 x8 x9 x10 x11 x12 x13 x14 x15 x16 x17 x18 p q, igate_at, cand_at]
  rfl

/-- The new hidden entry at (p, q): output gate times the hyperbolic tangent of the new cell entry. -/
theorem hidden_at (x0 x1 x2 : FVec Ideal S256x1024 .f32) (x3 x4 : FVec Ideal S1024x1024 .bf16) (x5 : FVec Ideal S1x1024 .f32)
    (x6 x7 : FVec Ideal S1024x1024 .bf16) (x8 : FVec Ideal S1x1024 .f32)
    (x9 x10 : FVec Ideal S1024x1024 .bf16) (x11 : FVec Ideal S1x1024 .f32)
    (x12 x13 : FVec Ideal S1024x16 .bf16) (x14 : FVec Ideal S1x16 .f32)
    (x15 : FVec Ideal S16x8 .bf16) (x16 : FVec Ideal S1x8 .f32)
    (x17 : FVec Ideal S8x1024 .bf16) (x18 : FVec Ideal S1x1024 .f32)
    (p : Fin 256) (q : Fin 1024) :
    k0_pay3 (F := Ideal) x2 (k0_pay6 x0 x1 x3 x4 x5) (k0_pay7 x0 x1 x6 x7 x8) (k0_pay9 (k0_pay4 x0) (k0_pay8 x1 x9) x10 x11)
        (k0_pay10 (k0_pay4 x0) (k0_pay5 x1) x12 x13 x14 x15 x16 x17) x18 (ix2 p q)
      = (blkW x3 x4 x5 x6 x7 x8 x9 x10 x11 x12 x13 x14 x15 x16 x17 x18).h (rowOf x0 p) (rowOf x1 p) (x2 (ix2 p q)) q := by
  unfold k0_pay3
  show k0_pay9 (F := Ideal) (k0_pay4 x0) (k0_pay8 x1 x9) x10 x11 (ix2 p q)
      * Ideal.tanh (k0_pay2 (F := Ideal) x2 (k0_pay6 x0 x1 x3 x4 x5) (k0_pay7 x0 x1 x6 x7 x8)
          (k0_pay10 (k0_pay4 x0) (k0_pay5 x1) x12 x13 x14 x15 x16 x17) x18 (ix2 p q)) = _
  rw [cell_at x0 x1 x2 x3 x4 x5 x6 x7 x8 x9 x10 x11 x12 x13 x14 x15 x16 x17 x18 p q, ogate_at]
  rfl

end Cert.KernelIdeal.Block

end
-- ==== Proof.Arrays.lean ====
/-
  What the kernel's windows hold, in terms of the ARGUMENT arrays.

  The grid has 32 points; point t stages rows 256·t … 256·t + 255 of the input x, the hidden state h and the cell
  state c (windows 0, 1, 2), and writes the same rows of the three results (windows 19, 20, 21). The sixteen weight
  windows (3 … 18) stage their whole array at every point. Those arrays are made before the call by the program
  itself from the arguments: each matrix by a change of float format (the identity at the ideal values), each bias
  by a reshape of the n-vector to 1 × n, and the two halves of the perceptron's first matrix by slices of rows
  0 … 1023 and 1024 … 2047. So the weights the body sees (Proof/Block.lean `blkW` of the blocks) are the weights
  the arguments hold (Proof/Cell.lean `ofArrays`).
-/
import proofs.«130329_j70411693851113_1_alg».proof.Proof.Gen.KernelIdeal.Frame
import proofs.«130329_j70411693851113_1_alg».proof.Proof.Block
import Idealize.ShloMosaic.Lib.Pipeline.Value
import Idealize.ShloMosaic.Lib.ValueIdx
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Cert.LstmCell Cert.KernelIdeal.Block

variable (m : (ℓ : Loc nD τ sig) → Buf (Elt Ideal) ℓ)

/-! ## The printed index maps over the grid -/

/-- The row windows move with the grid point on the row axis and stay at column block 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_19.index t (0 : Fin 2) = t.val ∧ win0_19.index t (1 : Fin 2) = 0
    ∧ win0_20.index t (0 : Fin 2) = t.val ∧ win0_20.index t (1 : Fin 2) = 0
    ∧ win0_21.index t (0 : Fin 2) = t.val ∧ win0_21.index t (1 : Fin 2) = 0 :=
  (by decide +kernel : ∀ t : Fin grid0.N, _)

/-- The weight windows stay at block (0, 0). -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 2) = 0 ∧ win0_18.index t (1 : Fin 2) = 0) :=
  (by decide +kernel : ∀ t : Fin grid0.N, _)

/-! ## The arrays the program makes before the call -/

theorem V_v0 (c : Dev nD) : (V m c main_v0 : S1024x1024.Idx → EReal) = (m ((c : Thread nD τ).loc main_arg3) : S1024x1024.Idx → EReal) := by
  dsimp only [V, hostOps0]; after_results; rfl
theorem V_v1 (c : Dev nD) : (V m c main_v1 : S1024x1024.Idx → EReal) = (m ((c : Thread nD τ).loc main_arg4) : S1024x1024.Idx → EReal) := by
  dsimp only [V, hostOps0]; after_results; rfl
theorem V_v2 (c : Dev nD) : (V m c main_v2 : S1024x1024.Idx → EReal) = (m ((c : Thread nD τ).loc main_arg6) : S1024x1024.Idx → EReal) := by
  dsimp only [V, hostOps0]; after_results; rfl
theorem V_v3 (c : Dev nD) : (V m c main_v3 : S1024x1024.Idx → EReal) = (m ((c : Thread nD τ).loc main_arg7) : S1024x1024.Idx → EReal) := by
  dsimp only [V, hostOps0]; after_results; rfl
theorem V_v4 (c : Dev nD) : (V m c main_v4 : S1024x1024.Idx → EReal) = (m ((c : Thread nD τ).loc main_arg9) : S1024x1024.Idx → EReal) := by
  dsimp only [V, hostOps0]; after_results; rfl
theorem V_v5 (c : Dev nD) : (V m c main_v5 : S1024x1024.Idx → EReal) = (m ((c : Thread nD τ).loc main_arg10) : S1024x1024.Idx → EReal) := by
  dsimp only [V, hostOps0]; after_results; rfl
theorem V_v6 (c : Dev nD) : (V m c main_v6 : S1x1024.Idx → EReal) = shapeCast S1x1024 (m ((c : Thread nD τ).loc main_arg5) : S1024.Idx → EReal) shapeCasts_S1024_S1x1024 := by
  dsimp only [V, hostOps0]; after_results; rfl
theorem V_v7 (c : Dev nD) : (V m c main_v7 : S1x1024.Idx → EReal) = shapeCast S1x1024 (m ((c : Thread nD τ).loc main_arg8) : S1024.Idx → EReal) shapeCasts_S1024_S1x1024 := by
  dsimp only [V, hostOps0]; after_results; rfl
theorem V_v8 (c : Dev nD) : (V m c main_v8 : S1x1024.Idx → EReal) = shapeCast S1x1024 (m ((c : Thread nD τ).loc main_arg11) : S1024.Idx → EReal) shapeCasts_S1024_S1x1024 := by
  dsimp only [V, hostOps0]; after_results; rfl
theorem V_v10 (c : Dev nD) : (V m c main_v10 : S1024x16.Idx → EReal) = extractStridedSlice S1024x16 ![0, 0] (m ((c : Thread nD τ).loc main_arg12) : S2048x16.Idx → EReal) slices_S2048x16_S1024x16_0_0 := by
  dsimp only [V, hostOps0]; after_results; rfl
theorem V_v12 (c : Dev nD) : (V m c main_v12 : S1024x16.Idx → EReal) = extractStridedSlice S1024x16 ![1024, 0] (m ((c : Thread nD τ).loc main_arg12) : S2048x16.Idx → EReal) slices_S2048x16_S1024x16_1024_0 := by
  dsimp only [V, hostOps0]; after_results; rfl
theorem V_v13 (c : Dev nD) : (V m c main_v13 : S1x16.Idx → EReal) = shapeCast S1x16 (m ((c : Thread nD τ).loc main_arg13) : S16.Idx → EReal) shapeCasts_S16_S1x16 := by
  dsimp only [V, hostOps0]; after_results; rfl
theorem V_v14 (c : Dev nD) : (V m c main_v14 : S16x8.Idx → EReal) = (m ((c : Thread nD τ).loc main_arg14) : S16x8.Idx → EReal) := by
  dsimp only [V, hostOps0]; after_results; rfl
theorem V_v15 (c : Dev nD) : (V m c main_v15 : S1x8.Idx → EReal) = shapeCast S1x8 (m ((c : Thread nD τ).loc main_arg15) : S8.Idx → EReal) shapeCasts_S8_S1x8 := by
  dsimp only [V, hostOps0]; after_results; rfl
theorem V_v16 (c : Dev nD) : (V m c main_v16 : S8x1024.Idx → EReal) = (m ((c : Thread nD τ).loc main_arg16) : S8x1024.Idx → EReal) := by
  dsimp only [V, hostOps0]; after_results; rfl
theorem V_v17 (c : Dev nD) : (V m c main_v17 : S1x1024.Idx → EReal) = shapeCast S1x1024 (m ((c : Thread nD τ).loc main_arg17) : S1024.Idx → EReal) shapeCasts_S1024_S1x1024 := by
  dsimp only [V, hostOps0]; after_results; rfl

/-! ## A weight window's block is its whole array -/

theorem blk3 (c : Dev nD) (t : Fin cfg0.N) : (iblk m c 3 t : S1024x1024.Idx → EReal) = (m ((c : Thread nD τ).loc main_arg3) : S1024x1024.Idx → EReal) := by
  obtain ⟨h0, h1⟩ := (idx_whole t).1
  have hz : (fun a => win0_3.index t a * main_v0.ty.shape.size a) = fun _ => 0 := funext fun a => by
    match a with
    | ⟨0, _⟩ => show win0_3.index t (0 : Fin 2) * 1024 = 0; rw [h0]
    | ⟨1, _⟩ => show win0_3.index t (1 : Fin 2) * 1024 = 0; rw [h1]
  exact (Memref.read_access_unit_zero (Elt Ideal) main_v0 hz (fun a => by rw [congrFun hz a]; simp) (V m c main_v0)).trans (V_v0 m c)

theorem blk4 (c : Dev nD) (t : Fin cfg0.N) : (iblk m c 4 t : S1024x1024.Idx → EReal) = (m ((c : Thread nD τ).loc main_arg4) : S1024x1024.Idx → EReal) := by
  obtain ⟨e3, e4, e5, e6, e7, e8, e9, e10, e11, e12, e13, e14, e15, e16, e17, e18⟩ := idx_whole t
  obtain ⟨h0, h1⟩ := e4
  have hz : (fun a => win0_4.index t a * main_v1.ty.shape.size a) = fun _ => 0 := funext fun a => by
    match a with
    | ⟨0, _⟩ => show win0_4.index t (0 : Fin 2) * 1024 = 0; rw [h0]
    | ⟨1, _⟩ => show win0_4.index t (1 : Fin 2) * 1024 = 0; rw [h1]
  exact (Memref.read_access_unit_zero (Elt Ideal) main_v1 hz (fun a => by rw [congrFun hz a]; simp) (V m c main_v1)).trans (V_v1 m c)

theorem blk5 (c : Dev nD) (t : Fin cfg0.N) : (iblk m c 5 t : S1x1024.Idx → EReal) = shapeCast S1x1024 (m ((c : Thread nD τ).loc main_arg5) : S1024.Idx → EReal) shapeCasts_S1024_S1x1024 := by
  obtain ⟨e3, e4, e5, e6, e7, e8, e9, e10, e11, e12, e13, e14, e15, e16, e17, e18⟩ := idx_whole t
  obtain ⟨h0, h1⟩ := e5
  have hz : (fun a => win0_5.index t a * main_v6.ty.shape.size a) = fun _ => 0 := funext fun a => by
    match a with
    | ⟨0, _⟩ => show win0_5.index t (0 : Fin 2) * 1 = 0; rw [h0]
    | ⟨1, _⟩ => show win0_5.index t (1 : Fin 2) * 1024 = 0; rw [h1]
  exact (Memref.read_access_unit_zero (Elt Ideal) main_v6 hz (fun a => by rw [congrFun hz a]; simp) (V m c main_v6)).trans (V_v6 m c)

theorem blk6 (c : Dev nD) (t : Fin cfg0.N) : (iblk m c 6 t : S1024x1024.Idx → EReal) = (m ((c : Thread nD τ).loc main_arg6) : S1024x1024.Idx → EReal) := by
  obtain ⟨e3, e4, e5, e6, e7, e8, e9, e10, e11, e12, e13, e14, e15, e16, e17, e18⟩ := idx_whole t
  obtain ⟨h0, h1⟩ := e6
  have hz : (fun a => win0_6.index t a * main_v2.ty.shape.size a) = fun _ => 0 := funext fun a => by
    match a with
    | ⟨0, _⟩ => show win0_6.index t (0 : Fin 2) * 1024 = 0; rw [h0]
    | ⟨1, _⟩ => show win0_6.index t (1 : Fin 2) * 1024 = 0; rw [h1]
  exact (Memref.read_access_unit_zero (Elt Ideal) main_v2 hz (fun a => by rw [congrFun hz a]; simp) (V m c main_v2)).trans (V_v2 m c)

theorem blk7 (c : Dev nD) (t : Fin cfg0.N) : (iblk m c 7 t : S1024x1024.Idx → EReal) = (m ((c : Thread nD τ).loc main_arg7) : S1024x1024.Idx → EReal) := by
  obtain ⟨e3, e4, e5, e6, e7, e8, e9, e10, e11, e12, e13, e14, e15, e16, e17, e18⟩ := idx_whole t
  obtain ⟨h0, h1⟩ := e7
  have hz : (fun a => win0_7.index t a * main_v3.ty.shape.size a) = fun _ => 0 := funext fun a => by
    match a with
    | ⟨0, _⟩ => show win0_7.index t (0 : Fin 2) * 1024 = 0; rw [h0]
    | ⟨1, _⟩ => show win0_7.index t (1 : Fin 2) * 1024 = 0; rw [h1]
  exact (Memref.read_access_unit_zero (Elt Ideal) main_v3 hz (fun a => by rw [congrFun hz a]; simp) (V m c main_v3)).trans (V_v3 m c)

theorem blk8 (c : Dev nD) (t : Fin cfg0.N) : (iblk m c 8 t : S1x1024.Idx → EReal) = shapeCast S1x1024 (m ((c : Thread nD τ).loc main_arg8) : S1024.Idx → EReal) shapeCasts_S1024_S1x1024 := by
  obtain ⟨e3, e4, e5, e6, e7, e8, e9, e10, e11, e12, e13, e14, e15, e16, e17, e18⟩ := idx_whole t
  obtain ⟨h0, h1⟩ := e8
  have hz : (fun a => win0_8.index t a * main_v7.ty.shape.size a) = fun _ => 0 := funext fun a => by
    match a with
    | ⟨0, _⟩ => show win0_8.index t (0 : Fin 2) * 1 = 0; rw [h0]
    | ⟨1, _⟩ => show win0_8.index t (1 : Fin 2) * 1024 = 0; rw [h1]
  exact (Memref.read_access_unit_zero (Elt Ideal) main_v7 hz (fun a => by rw [congrFun hz a]; simp) (V m c main_v7)).trans (V_v7 m c)

theorem blk9 (c : Dev nD) (t : Fin cfg0.N) : (iblk m c 9 t : S1024x1024.Idx → EReal) = (m ((c : Thread nD τ).loc main_arg9) : S1024x1024.Idx → EReal) := by
  obtain ⟨e3, e4, e5, e6, e7, e8, e9, e10, e11, e12, e13, e14, e15, e16, e17, e18⟩ := idx_whole t
  obtain ⟨h0, h1⟩ := e9
  have hz : (fun a => win0_9.index t a * main_v4.ty.shape.size a) = fun _ => 0 := funext fun a => by
    match a with
    | ⟨0, _⟩ => show win0_9.index t (0 : Fin 2) * 1024 = 0; rw [h0]
    | ⟨1, _⟩ => show win0_9.index t (1 : Fin 2) * 1024 = 0; rw [h1]
  exact (Memref.read_access_unit_zero (Elt Ideal) main_v4 hz (fun a => by rw [congrFun hz a]; simp) (V m c main_v4)).trans (V_v4 m c)

theorem blk10 (c : Dev nD) (t : Fin cfg0.N) : (iblk m c 10 t : S1024x1024.Idx → EReal) = (m ((c : Thread nD τ).loc main_arg10) : S1024x1024.Idx → EReal) := by
  obtain ⟨e3, e4, e5, e6, e7, e8, e9, e10, e11, e12, e13, e14, e15, e16, e17, e18⟩ := idx_whole t
  obtain ⟨h0, h1⟩ := e10
  have hz : (fun a => win0_10.index t a * main_v5.ty.shape.size a) = fun _ => 0 := funext fun a => by
    match a with
    | ⟨0, _⟩ => show win0_10.index t (0 : Fin 2) * 1024 = 0; rw [h0]
    | ⟨1, _⟩ => show win0_10.index t (1 : Fin 2) * 1024 = 0; rw [h1]
  exact (Memref.read_access_unit_zero (Elt Ideal) main_v5 hz (fun a => by rw [congrFun hz a]; simp) (V m c main_v5)).trans (V_v5 m c)

theorem blk11 (c : Dev nD) (t : Fin cfg0.N) : (iblk m c 11 t : S1x1024.Idx → EReal) = shapeCast S1x1024 (m ((c : Thread nD τ).loc main_arg11) : S1024.Idx → EReal) shapeCasts_S1024_S1x1024 := by
  obtain ⟨e3, e4, e5, e6, e7, e8, e9, e10, e11, e12, e13, e14, e15, e16, e17, e18⟩ := idx_whole t
  obtain ⟨h0, h1⟩ := e11
  have hz : (fun a => win0_11.index t a * main_v8.ty.shape.size a) = fun _ => 0 := funext fun a => by
    match a with
    | ⟨0, _⟩ => show win0_11.index t (0 : Fin 2) * 1 = 0; rw [h0]
    | ⟨1, _⟩ => show win0_11.index t (1 : Fin 2) * 1024 = 0; rw [h1]
  exact (Memref.read_access_unit_zero (Elt Ideal) main_v8 hz (fun a => by rw [congrFun hz a]; simp) (V m c main_v8)).trans (V_v8 m c)

theorem blk12 (c : Dev nD) (t : Fin cfg0.N) : (iblk m c 12 t : S1024x16.Idx → EReal) = extractStridedSlice S1024x16 ![0, 0] (m ((c : Thread nD τ).loc main_arg12) : S2048x16.Idx → EReal) slices_S2048x16_S1024x16_0_0 := by
  obtain ⟨e3, e4, e5, e6, e7, e8, e9, e10, e11, e12, e13, e14, e15, e16, e17, e18⟩ := idx_whole t
  obtain ⟨h0, h1⟩ := e12
  have hz : (fun a => win0_12.index t a * main_v10.ty.shape.size a) = fun _ => 0 := funext fun a => by
    match a with
    | ⟨0, _⟩ => show win0_12.index t (0 : Fin 2) * 1024 = 0; rw [h0]
    | ⟨1, _⟩ => show win0_12.index t (1 : Fin 2) * 16 = 0; rw [h1]
  exact (Memref.read_access_unit_zero (Elt Ideal) main_v10 hz (fun a => by rw [congrFun hz a]; simp) (V m c main_v10)).trans (V_v10 m c)

theorem blk13 (c : Dev nD) (t : Fin cfg0.N) : (iblk m c 13 t : S1024x16.Idx → EReal) = extractStridedSlice S1024x16 ![1024, 0] (m ((c : Thread nD τ).loc main_arg12) : S2048x16.Idx → EReal) slices_S2048x16_S1024x16_1024_0 := by
  obtain ⟨e3, e4, e5, e6, e7, e8, e9, e10, e11, e12, e13, e14, e15, e16, e17, e18⟩ := idx_whole t
  obtain ⟨h0, h1⟩ := e13
  have hz : (fun a => win0_13.index t a * main_v12.ty.shape.size a) = fun _ => 0 := funext fun a => by
    match a with
    | ⟨0, _⟩ => show win0_13.index t (0 : Fin 2) * 1024 = 0; rw [h0]
    | ⟨1, _⟩ => show win0_13.index t (1 : Fin 2) * 16 = 0; rw [h1]
  exact (Memref.read_access_unit_zero (Elt Ideal) main_v12 hz (fun a => by rw [congrFun hz a]; simp) (V m c main_v12)).trans (V_v12 m c)

theorem blk14 (c : Dev nD) (t : Fin cfg0.N) : (iblk m c 14 t : S1x16.Idx → EReal) = shapeCast S1x16 (m ((c : Thread nD τ).loc main_arg13) : S16.Idx → EReal) shapeCasts_S16_S1x16 := by
  obtain ⟨e3, e4, e5, e6, e7, e8, e9, e10, e11, e12, e13, e14, e15, e16, e17, e18⟩ := idx_whole t
  obtain ⟨h0, h1⟩ := e14
  have hz : (fun a => win0_14.index t a * main_v13.ty.shape.size a) = fun _ => 0 := funext fun a => by
    match a with
    | ⟨0, _⟩ => show win0_14.index t (0 : Fin 2) * 1 = 0; rw [h0]
    | ⟨1, _⟩ => show win0_14.index t (1 : Fin 2) * 16 = 0; rw [h1]
  exact (Memref.read_access_unit_zero (Elt Ideal) main_v13 hz (fun a => by rw [congrFun hz a]; simp) (V m c main_v13)).trans (V_v13 m c)

theorem blk15 (c : Dev nD) (t : Fin cfg0.N) : (iblk m c 15 t : S16x8.Idx → EReal) = (m ((c : Thread nD τ).loc main_arg14) : S16x8.Idx → EReal) := by
  obtain ⟨e3, e4, e5, e6, e7, e8, e9, e10, e11, e12, e13, e14, e15, e16, e17, e18⟩ := idx_whole t
  obtain ⟨h0, h1⟩ := e15
  have hz : (fun a => win0_15.index t a * main_v14.ty.shape.size a) = fun _ => 0 := funext fun a => by
    match a with
    | ⟨0, _⟩ => show win0_15.index t (0 : Fin 2) * 16 = 0; rw [h0]
    | ⟨1, _⟩ => show win0_15.index t (1 : Fin 2) * 8 = 0; rw [h1]
  exact (Memref.read_access_unit_zero (Elt Ideal) main_v14 hz (fun a => by rw [congrFun hz a]; simp) (V m c main_v14)).trans (V_v14 m c)

theorem blk16 (c : Dev nD) (t : Fin cfg0.N) : (iblk m c 16 t : S1x8.Idx → EReal) = shapeCast S1x8 (m ((c : Thread nD τ).loc main_arg15) : S8.Idx → EReal) shapeCasts_S8_S1x8 := by
  obtain ⟨e3, e4, e5, e6, e7, e8, e9, e10, e11, e12, e13, e14, e15, e16, e17, e18⟩ := idx_whole t
  obtain ⟨h0, h1⟩ := e16
  have hz : (fun a => win0_16.index t a * main_v15.ty.shape.size a) = fun _ => 0 := funext fun a => by
    match a with
    | ⟨0, _⟩ => show win0_16.index t (0 : Fin 2) * 1 = 0; rw [h0]
    | ⟨1, _⟩ => show win0_16.index t (1 : Fin 2) * 8 = 0; rw [h1]
  exact (Memref.read_access_unit_zero (Elt Ideal) main_v15 hz (fun a => by rw [congrFun hz a]; simp) (V m c main_v15)).trans (V_v15 m c)

theorem blk17 (c : Dev nD) (t : Fin cfg0.N) : (iblk m c 17 t : S8x1024.Idx → EReal) = (m ((c : Thread nD τ).loc main_arg16) : S8x1024.Idx → EReal) := by
  obtain ⟨e3, e4, e5, e6, e7, e8, e9, e10, e11, e12, e13, e14, e15, e16, e17, e18⟩ := idx_whole t
  obtain ⟨h0, h1⟩ := e17
  have hz : (fun a => win0_17.index t a * main_v16.ty.shape.size a) = fun _ => 0 := funext fun a => by
    match a with
    | ⟨0, _⟩ => show win0_17.index t (0 : Fin 2) * 8 = 0; rw [h0]
    | ⟨1, _⟩ => show win0_17.index t (1 : Fin 2) * 1024 = 0; rw [h1]
  exact (Memref.read_access_unit_zero (Elt Ideal) main_v16 hz (fun a => by rw [congrFun hz a]; simp) (V m c main_v16)).trans (V_v16 m c)

theorem blk18 (c : Dev nD) (t : Fin cfg0.N) : (iblk m c 18 t : S1x1024.Idx → EReal) = shapeCast S1x1024 (m ((c : Thread nD τ).loc main_arg17) : S1024.Idx → EReal) shapeCasts_S1024_S1x1024 := by
  obtain ⟨e3, e4, e5, e6, e7, e8, e9, e10, e11, e12, e13, e14, e15, e16, e17, e18⟩ := idx_whole t
  obtain ⟨h0, h1⟩ := e18
  have hz : (fun a => win0_18.index t a * main_v17.ty.shape.size a) = fun _ => 0 := funext fun a => by
    match a with
    | ⟨0, _⟩ => show win0_18.index t (0 : Fin 2) * 1 = 0; rw [h0]
    | ⟨1, _⟩ => show win0_18.index t (1 : Fin 2) * 1024 = 0; rw [h1]
  exact (Memref.read_access_unit_zero (Elt Ideal) main_v17 hz (fun a => by rw [congrFun hz a]; simp) (V m c main_v17)).trans (V_v17 m c)

/-! ## The layout operations read at an entry -/

/-- An n-vector reshaped to 1 × n reads, at (0, q), the vector's entry q. -/
theorem reshape1024_at (b : S1024.Idx → EReal) (q : Fin 1024) :
    shapeCast S1x1024 b shapeCasts_S1024_S1x1024 (ix2 (0 : Fin 1) q) = b (ix1 q) :=
  shapeCast_apply b shapeCasts_S1024_S1x1024 (ix2 (0 : Fin 1) q) (ix1 q) (by
    rw [Shape.rowMajor_val_one, Shape.rowMajor_val_two]; show q.val = 0 * 1024 + q.val; omega)

theorem reshape16_at (b : S16.Idx → EReal) (j : Fin 16) :
    shapeCast S1x16 b shapeCasts_S16_S1x16 (ix2 (0 : Fin 1) j) = b (ix1 j) :=
  shapeCast_apply b shapeCasts_S16_S1x16 (ix2 (0 : Fin 1) j) (ix1 j) (by
    rw [Shape.rowMajor_val_one, Shape.rowMajor_val_two]; show j.val = 0 * 16 + j.val; omega)

theorem reshape8_at (b : S8.Idx → EReal) (l : Fin 8) :
    shapeCast S1x8 b shapeCasts_S8_S1x8 (ix2 (0 : Fin 1) l) = b (ix1 l) :=
  shapeCast_apply b shapeCasts_S8_S1x8 (ix2 (0 : Fin 1) l) (ix1 l) (by
    rw [Shape.rowMajor_val_one, Shape.rowMajor_val_two]; show l.val = 0 * 8 + l.val; omega)

/-- Rows 0 … 1023 of the 2048-row matrix: row k of the slice is row k. -/
theorem slice_lo_at (W1 : S2048x16.Idx → EReal) (k : Fin 1024) (j : Fin 16) :
    extractStridedSlice S1024x16 ![0, 0] W1 slices_S2048x16_S1024x16_0_0 (ix2 k j) = W1 (ix2 (lo k) j) :=
  extractStridedSlice_apply ![0, 0] W1 slices_S2048x16_S1024x16_0_0 (ix2 k j) (ix2 (lo k) j) (fun a => match a with
    | ⟨0, _⟩ => by show k.val = 0 + k.val; omega
    | ⟨1, _⟩ => by show j.val = 0 + j.val; omega)

/-- Rows 1024 … 2047: row k of the slice is row 1024 + k. -/
theorem slice_hi_at (W1 : S2048x16.Idx → EReal) (k : Fin 1024) (j : Fin 16) :
    extractStridedSlice S1024x16 ![1024, 0] W1 slices_S2048x16_S1024x16_1024_0 (ix2 k j) = W1 (ix2 (hi k) j) :=
  extractStridedSlice_apply ![1024, 0] W1 slices_S2048x16_S1024x16_1024_0 (ix2 k j) (ix2 (hi k) j) (fun a => match a with
    | ⟨0, _⟩ => by show 1024 + k.val = 1024 + k.val; rfl
    | ⟨1, _⟩ => by show j.val = 0 + j.val; omega)

/-! ## The weights the body sees are the weights the arguments hold -/

theorem blkW_eq (c : Dev nD) (t : Fin cfg0.N) :
    blkW (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) (iblk m c 15 t) (iblk m c 16 t)
        (iblk m c 17 t) (iblk m c 18 t)
      = ofArrays (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17)) := by
  show blkW (iblk m c 3 t : S1024x1024.Idx → EReal) (iblk m c 4 t : S1024x1024.Idx → EReal) (iblk m c 5 t : S1x1024.Idx → EReal)
      (iblk m c 6 t : S1024x1024.Idx → EReal) (iblk m c 7 t : S1024x1024.Idx → EReal) (iblk m c 8 t : S1x1024.Idx → EReal)
      (iblk m c 9 t : S1024x1024.Idx → EReal) (iblk m c 10 t : S1024x1024.Idx → EReal) (iblk m c 11 t : S1x1024.Idx → EReal)
      (iblk m c 12 t : S1024x16.Idx → EReal) (iblk m c 13 t : S1024x16.Idx → EReal) (iblk m c 14 t : S1x16.Idx → EReal)
      (iblk m c 15 t : S16x8.Idx → EReal) (iblk m c 16 t : S1x8.Idx → EReal) (iblk m c 17 t : S8x1024.Idx → EReal)
      (iblk m c 18 t : S1x1024.Idx → EReal) = _
  rw [blk3 m c t, blk4 m c t, blk5 m c t, blk6 m c t, blk7 m c t, blk8 m c t, blk9 m c t, blk10 m c t, blk11 m c t,
    blk12 m c t, blk13 m c t, blk14 m c t, blk15 m c t, blk16 m c t, blk17 m c t, blk18 m c t]
  unfold blkW ofArrays
  congr 1
  all_goals first
    | exact funext fun q => reshape1024_at _ q
    | exact funext fun j => reshape16_at _ j
    | exact funext fun l => reshape8_at _ l
    | exact funext fun k => funext fun j => slice_lo_at _ k j
    | exact funext fun k => funext fun j => slice_hi_at _ k j

/-! ## The row windows: block t is rows 256·t … 256·t + 255 -/

/-- The array row under row `p` of block `t`. -/
def row (t : Fin cfg0.N) (p : Fin 256) : Fin 8192 :=
  ⟨256 * t.val + p.val, by have ht := t.isLt; have hN : cfg0.N = 32 := N_0; omega⟩

theorem xrow (c : Dev nD) (t : Fin cfg0.N) (p : Fin 256) (k : Fin 1024) :
    (iblk m c 0 t : S256x1024.Idx → EReal) (ix2 p k) = (m ((c : Thread nD τ).loc main_arg0) : S8192x1024.Idx → EReal) (ix2 (row t p) k) := by
  obtain ⟨h0, h1, -⟩ := idx_rows t
  unfold iblk
  rw [View.read_apply]
  show V m c main_arg0 _ = _
  rw [V_main_arg0 m c]
  congr 1
  funext a; apply Fin.ext
  match a with
  | ⟨0, _⟩ => show win0_0.index t (0 : Fin 2) * 256 + 1 * p.val = 256 * t.val + p.val; rw [h0]; omega
  | ⟨1, _⟩ => show win0_0.index t (1 : Fin 2) * 1024 + 1 * k.val = k.val; rw [h1]; omega

theorem hrow (c : Dev nD) (t : Fin cfg0.N) (p : Fin 256) (k : Fin 1024) :
    (iblk m c 1 t : S256x1024.Idx → EReal) (ix2 p k) = (m ((c : Thread nD τ).loc main_arg1) : S8192x1024.Idx → EReal) (ix2 (row t p) k) := by
  obtain ⟨-, -, h0, h1, -⟩ := idx_rows t
  unfold iblk
  rw [View.read_apply]
  show V m c main_arg1 _ = _
  rw [V_main_arg1 m c]
  congr 1
  funext a; apply Fin.ext
  match a with
  | ⟨0, _⟩ => show win0_1.index t (0 : Fin 2) * 256 + 1 * p.val = 256 * t.val + p.val; rw [h0]; omega
  | ⟨1, _⟩ => show win0_1.index t (1 : Fin 2) * 1024 + 1 * k.val = k.val; rw [h1]; omega

theorem crow (c : Dev nD) (t : Fin cfg0.N) (p : Fin 256) (k : Fin 1024) :
    (iblk m c 2 t : S256x1024.Idx → EReal) (ix2 p k) = (m ((c : Thread nD τ).loc main_arg2) : S8192x1024.Idx → EReal) (ix2 (row t p) k) := by
  obtain ⟨-, -, -, -, h0, h1, -⟩ := idx_rows t
  unfold iblk
  rw [View.read_apply]
  show V m c main_arg2 _ = _
  rw [V_main_arg2 m c]
  congr 1
  funext a; apply Fin.ext
  match a with
  | ⟨0, _⟩ => show win0_2.index t (0 : Fin 2) * 256 + 1 * p.val = 256 * t.val + p.val; rw [h0]; omega
  | ⟨1, _⟩ => show win0_2.index t (1 : Fin 2) * 1024 + 1 * k.val = k.val; rw [h1]; omega

/-- Entry (p, q) of output block `t` lies at (256·t + p, q) of the result array: for each of the three results. -/
theorem out19_at (t : Fin cfg0.N) (p : Fin 256) (q : Fin 1024) :
    ((cfg0.win 19).blk t).view.emb (ix2 p q : S256x1024.Idx) = (ix2 (row t p) q : S8192x1024.Idx) := by
  obtain ⟨-, -, -, -, -, -, h0, h1, -⟩ := idx_rows t
  funext a; apply Fin.ext
  match a with
  | ⟨0, _⟩ => show win0_19.index t (0 : Fin 2) * 256 + 1 * p.val = 256 * t.val + p.val; rw [h0]; omega
  | ⟨1, _⟩ => show win0_19.index t (1 : Fin 2) * 1024 + 1 * q.val = q.val; rw [h1]; omega

theorem out20_at (t : Fin cfg0.N) (p : Fin 256) (q : Fin 1024) :
    ((cfg0.win 20).blk t).view.emb (ix2 p q : S256x1024.Idx) = (ix2 (row t p) q : S8192x1024.Idx) := by
  obtain ⟨-, -, -, -, -, -, -, -, h0, h1, -⟩ := idx_rows t
  funext a; apply Fin.ext
  match a with
  | ⟨0, _⟩ => show win0_20.index t (0 : Fin 2) * 256 + 1 * p.val = 256 * t.val + p.val; rw [h0]; omega
  | ⟨1, _⟩ => show win0_20.index t (1 : Fin 2) * 1024 + 1 * q.val = q.val; rw [h1]; omega

theorem out21_at (t : Fin cfg0.N) (p : Fin 256) (q : Fin 1024) :
    ((cfg0.win 21).blk t).view.emb (ix2 p q : S256x1024.Idx) = (ix2 (row t p) q : S8192x1024.Idx) := by
  obtain ⟨-, -, -, -, -, -, -, -, -, -, h0, h1⟩ := idx_rows t
  funext a; apply Fin.ext
  match a with
  | ⟨0, _⟩ => show win0_21.index t (0 : Fin 2) * 256 + 1 * p.val = 256 * t.val + p.val; rw [h0]; omega
  | ⟨1, _⟩ => show win0_21.index t (1 : Fin 2) * 1024 + 1 * q.val = q.val; rw [h1]; omega

end Cert.KernelIdeal.Arrays

end
-- ==== Proof.Final.lean ====
/-
  The idealized kernel's run, read: the three result arrays are the LSTM step's array functions of the arguments.

  Grid point t writes back, for each result, a 256 × 1024 block. By Proof/Block.lean the entry (p, q) of that block
  is the row function of row p of the staged x, h, c blocks and of the staged weights; by Proof/Arrays.lean those are
  row 256·t + p of the argument arrays and the argument weights, and the entry lies at (256·t + p, q) of the result.
  So the block point t writes is block t of ONE whole-array function (Proof/Cell.lean `Hnew`, `Cnew`, `Fgate`), and the
  32 blocks cover the 8192 rows: row r lies in the block of point r / 256. Hence each result array ends holding its
  function of the arguments, whatever order the points ran in.
-/
import proofs.«130329_j70411693851113_1_alg».proof.Proof.Gen.KernelIdeal.Value
import proofs.«130329_j70411693851113_1_alg».proof.Proof.Arrays
import Idealize.ShloMosaic.Lib.Pipeline.Value
import Idealize.ShloMosaic.Lib.ValueIdx

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.LstmCell Cert.KernelIdeal.Block Cert.KernelIdeal.Arrays

variable (m : (ℓ : Loc nD τ sig) → Buf (Elt Ideal) ℓ) (ρ : Dev nD → PrngReg)

theorem hz : (![0, 0] : Fin 2 → Nat) = fun _ => 0 := funext fun a => by fin_cases a <;> rfl

/-- The weights the arguments hold. -/
abbrev W (c : Dev nD) : Wts :=
  ofArrays (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))

/-- The input, hidden and cell arrays. -/
abbrev X (c : Dev nD) : S8192x1024.Idx → EReal := m ((c : Thread nD τ).loc main_arg0)
abbrev H (c : Dev nD) : S8192x1024.Idx → EReal := m ((c : Thread nD τ).loc main_arg1)
abbrev C (c : Dev nD) : S8192x1024.Idx → EReal := m ((c : Thread nD τ).loc main_arg2)

/-- Row p of the staged input block is row 256·t + p of the input array; the same for the hidden block. -/
theorem xrows (c : Dev nD) (t : Fin cfg0.N) (p : Fin 256) :
    rowOf (iblk m c 0 t : S256x1024.Idx → EReal) p = rowOf (X m c) (row t p) := funext fun k => xrow m c t p k
theorem hrows (c : Dev nD) (t : Fin cfg0.N) (p : Fin 256) :
    rowOf (iblk m c 1 t : S256x1024.Idx → EReal) p = rowOf (H m c) (row t p) := funext fun k => hrow m c t p k

/-! ## What each point writes back -/

/-- Point t writes block t of the new hidden array. -/
theorem flushed19_eq (c : Dev nD) (t : Fin cfg0.N) :
    (dats m 0 c).flushed 19 t = ((cfg0.win 19).blk t).view.read (Elt Ideal) (Hnew (W m c) (X m c) (H m c) (C m c)) := by
  rw [Value.flushed19]
  unfold out0_19
  rw [View.canon_unit_zero hz]
  simp only [View.ld_unit_zero (S := S256x1024) hz, View.ld_unit_zero (S := S1024x1024) hz, View.ld_unit_zero (S := S1x1024) hz,
    View.ld_unit_zero (S := S1024x16) hz, View.ld_unit_zero (S := S1x16) hz, View.ld_unit_zero (S := S16x8) hz,
    View.ld_unit_zero (S := S1x8) hz, View.ld_unit_zero (S := S8x1024) hz]
  funext y
  obtain ⟨p, q, rfl⟩ : ∃ (p : Fin 256) (q : Fin 1024), y = ix2 p q := ⟨y 0, y 1, eq_ix2 y⟩
  show k0_pay3 (F := Ideal) (iblk m c 2 t) (k0_pay6 (iblk m c 0 t) (iblk m c 1 t) (iblk m c 3 t) (iblk m c 4 t) (iblk m c 5 t)) (k0_pay7 (iblk m c 0 t) (iblk m c 1 t) (iblk m c 6 t) (iblk m c 7 t) (iblk m c 8 t))
      (k0_pay9 (k0_pay4 (iblk m c 0 t)) (k0_pay8 (iblk m c 1 t) (iblk m c 9 t)) (iblk m c 10 t) (iblk m c 11 t))
      (k0_pay10 (k0_pay4 (iblk m c 0 t)) (k0_pay5 (iblk m c 1 t)) (iblk m c 12 t) (iblk m c 13 t) (iblk m c 14 t) (iblk m c 15 t) (iblk m c 16 t) (iblk m c 17 t)) (iblk m c 18 t) (ix2 p q)
    = Hnew (W m c) (X m c) (H m c) (C m c) (((cfg0.win 19).blk t).view.emb (ix2 p q : S256x1024.Idx))
  refine (hidden_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p q).trans ?_
  rw [blkW_eq m c t, out19_at t p q]
  show (W m c).h (rowOf (iblk m c 0 t : S256x1024.Idx → EReal) p) (rowOf (iblk m c 1 t : S256x1024.Idx → EReal) p)
      ((iblk m c 2 t : S256x1024.Idx → EReal) (ix2 p q)) q
    = (W m c).h (rowOf (X m c) (row t p)) (rowOf (H m c) (row t p)) (C m c (ix2 (row t p) q)) q
  rw [xrows m c t p, hrows m c t p, crow m c t p q]

/-- Point t writes block t of the new cell array. -/
theorem flushed20_eq (c : Dev nD) (t : Fin cfg0.N) :
    (dats m 0 c).flushed 20 t = ((cfg0.win 20).blk t).view.read (Elt Ideal) (Cnew (W m c) (X m c) (H m c) (C m c)) := by
  rw [Value.flushed20]
  unfold out0_20
  rw [View.canon_unit_zero hz]
  simp only [View.ld_unit_zero (S := S256x1024) hz, View.ld_unit_zero (S := S1024x1024) hz, View.ld_unit_zero (S := S1x1024) hz,
    View.ld_unit_zero (S := S1024x16) hz, View.ld_unit_zero (S := S1x16) hz, View.ld_unit_zero (S := S16x8) hz,
    View.ld_unit_zero (S := S1x8) hz, View.ld_unit_zero (S := S8x1024) hz]
  funext y
  obtain ⟨p, q, rfl⟩ : ∃ (p : Fin 256) (q : Fin 1024), y = ix2 p q := ⟨y 0, y 1, eq_ix2 y⟩
  show k0_pay2 (F := Ideal) (iblk m c 2 t) (k0_pay6 (iblk m c 0 t) (iblk m c 1 t) (iblk m c 3 t) (iblk m c 4 t) (iblk m c 5 t)) (k0_pay7 (iblk m c 0 t) (iblk m c 1 t) (iblk m c 6 t) (iblk m c 7 t) (iblk m c 8 t))
      (k0_pay10 (k0_pay4 (iblk m c 0 t)) (k0_pay5 (iblk m c 1 t)) (iblk m c 12 t) (iblk m c 13 t) (iblk m c 14 t) (iblk m c 15 t) (iblk m c 16 t) (iblk m c 17 t)) (iblk m c 18 t) (ix2 p q)
    = Cnew (W m c) (X m c) (H m c) (C m c) (((cfg0.win 20).blk t).view.emb (ix2 p q : S256x1024.Idx))
  refine (cell_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p q).trans ?_
  rw [blkW_eq m c t, out20_at t p q]
  show (W m c).c (rowOf (iblk m c 0 t : S256x1024.Idx → EReal) p) (rowOf (iblk m c 1 t : S256x1024.Idx → EReal) p)
      ((iblk m c 2 t : S256x1024.Idx → EReal) (ix2 p q)) q
    = (W m c).c (rowOf (X m c) (row t p)) (rowOf (H m c) (row t p)) (C m c (ix2 (row t p) q)) q
  rw [xrows m c t p, hrows m c t p, crow m c t p q]

/-- Point t writes block t of the forget-gate array. -/
theorem flushed21_eq (c : Dev nD) (t : Fin cfg0.N) :
    (dats m 0 c).flushed 21 t = ((cfg0.win 21).blk t).view.read (Elt Ideal) (Fgate (W m c) (X m c) (H m c)) := by
  rw [Value.flushed21]
  unfold out0_21
  rw [View.canon_unit_zero hz]
  simp only [View.ld_unit_zero (S := S256x1024) hz, View.ld_unit_zero (S := S1x1024) hz,
    View.ld_unit_zero (S := S1024x16) hz, View.ld_unit_zero (S := S1x16) hz, View.ld_unit_zero (S := S16x8) hz,
    View.ld_unit_zero (S := S1x8) hz, View.ld_unit_zero (S := S8x1024) hz]
  funext y
  obtain ⟨p, q, rfl⟩ : ∃ (p : Fin 256) (q : Fin 1024), y = ix2 p q := ⟨y 0, y 1, eq_ix2 y⟩
  show k0_pay1 (F := Ideal) (k0_pay10 (k0_pay4 (iblk m c 0 t)) (k0_pay5 (iblk m c 1 t)) (iblk m c 12 t) (iblk m c 13 t) (iblk m c 14 t) (iblk m c 15 t) (iblk m c 16 t) (iblk m c 17 t)) (iblk m c 18 t) (ix2 p q)
    = Fgate (W m c) (X m c) (H m c) (((cfg0.win 21).blk t).view.emb (ix2 p q : S256x1024.Idx))
  refine (forget_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p q).trans ?_
  rw [blkW_eq m c t, out21_at t p q]
  show (W m c).f (rowOf (iblk m c 0 t : S256x1024.Idx → EReal) p) (rowOf (iblk m c 1 t : S256x1024.Idx → EReal) p) q
    = (W m c).f (rowOf (X m c) (row t p)) (rowOf (H m c) (row t p)) q
  rw [xrows m c t p, hrows m c t p]

/-! ## The blocks cover the arrays -/

/-- Row r of a result lies in the block of point r / 256 (for each of the three output windows the same arithmetic). -/
theorem cover19 (i : S8192x1024.Idx) : ∃ t : Fin cfg0.N, (cfg0.win 19).flush t = true ∧ i ∈ ((cfg0.win 19).blk t).view.set := by
  have hi0 : (i 0).val < 8192 := (i 0).isLt
  have hi1 : (i 1).val < 1024 := (i 1).isLt
  have hN : cfg0.N = 32 := N_0
  let t : Fin cfg0.N := ⟨(i 0).val / 256, by omega⟩
  obtain ⟨-, -, -, -, -, -, h0, h1, -⟩ := idx_rows t
  refine ⟨t, flush0_19 t, ?_⟩
  show i ∈ ((View.whole main_v18_0).slice (win0_19.rect t)).set
  rw [View.set_slice_whole, Rect.mem_set_unit]
  intro a
  match a with
  | ⟨0, _⟩ =>
    show win0_19.index t (0 : Fin 2) * 256 ≤ (i 0).val ∧ (i 0).val < win0_19.index t (0 : Fin 2) * 256 + 256
    rw [h0]; show (i 0).val / 256 * 256 ≤ (i 0).val ∧ (i 0).val < (i 0).val / 256 * 256 + 256; omega
  | ⟨1, _⟩ =>
    show win0_19.index t (1 : Fin 2) * 1024 ≤ (i 1).val ∧ (i 1).val < win0_19.index t (1 : Fin 2) * 1024 + 1024
    rw [h1]; omega

theorem cover20 (i : S8192x1024.Idx) : ∃ t : Fin cfg0.N, (cfg0.win 20).flush t = true ∧ i ∈ ((cfg0.win 20).blk t).view.set := by
  have hi0 : (i 0).val < 8192 := (i 0).isLt
  have hi1 : (i 1).val < 1024 := (i 1).isLt
  have hN : cfg0.N = 32 := N_0
  let t : Fin cfg0.N := ⟨(i 0).val / 256, by omega⟩
  obtain ⟨-, -, -, -, -, -, -, -, h0, h1, -⟩ := idx_rows t
  refine ⟨t, flush0_20 t, ?_⟩
  show i ∈ ((View.whole main_v18_1).slice (win0_20.rect t)).set
  rw [View.set_slice_whole, Rect.mem_set_unit]
  intro a
  match a with
  | ⟨0, _⟩ =>
    show win0_20.index t (0 : Fin 2) * 256 ≤ (i 0).val ∧ (i 0).val < win0_20.index t (0 : Fin 2) * 256 + 256
    rw [h0]; show (i 0).val / 256 * 256 ≤ (i 0).val ∧ (i 0).val < (i 0).val / 256 * 256 + 256; omega
  | ⟨1, _⟩ =>
    show win0_20.index t (1 : Fin 2) * 1024 ≤ (i 1).val ∧ (i 1).val < win0_20.index t (1 : Fin 2) * 1024 + 1024
    rw [h1]; omega

theorem cover21 (i : S8192x1024.Idx) : ∃ t : Fin cfg0.N, (cfg0.win 21).flush t = true ∧ i ∈ ((cfg0.win 21).blk t).view.set := by
  have hi0 : (i 0).val < 8192 := (i 0).isLt
  have hi1 : (i 1).val < 1024 := (i 1).isLt
  have hN : cfg0.N = 32 := N_0
  let t : Fin cfg0.N := ⟨(i 0).val / 256, by omega⟩
  obtain ⟨-, -, -, -, -, -, -, -, -, -, h0, h1⟩ := idx_rows t
  refine ⟨t, flush0_21 t, ?_⟩
  show i ∈ ((View.whole main_v18_2).slice (win0_21.rect t)).set
  rw [View.set_slice_whole, Rect.mem_set_unit]
  intro a
  match a with
  | ⟨0, _⟩ =>
    show win0_21.index t (0 : Fin 2) * 256 ≤ (i 0).val ∧ (i 0).val < win0_21.index t (0 : Fin 2) * 256 + 256
    rw [h0]; show (i 0).val / 256 * 256 ≤ (i 0).val ∧ (i 0).val < (i 0).val / 256 * 256 + 256; omega
  | ⟨1, _⟩ =>
    show win0_21.index t (1 : Fin 2) * 1024 ≤ (i 1).val ∧ (i 1).val < win0_21.index t (1 : Fin 2) * 1024 + 1024
    rw [h1]; omega

/-! ## The arrays after the run, and the run -/

theorem final19 (c : Dev nD) : (dats m 0 c).arrAt 19 cfg0.N = Hnew (W m c) (X m c) (H m c) (C m c) :=
  (dats m 0 c).arrAt_eq_of_cover 19 (Hnew (W m c) (X m c) (H m c) (C m c)) (fun t _ => flushed19_eq m c t) cover19

theorem final20 (c : Dev nD) : (dats m 0 c).arrAt 20 cfg0.N = Cnew (W m c) (X m c) (H m c) (C m c) :=
  (dats m 0 c).arrAt_eq_of_cover 20 (Cnew (W m c) (X m c) (H m c) (C m c)) (fun t _ => flushed20_eq m c t) cover20

theorem final21 (c : Dev nD) : (dats m 0 c).arrAt 21 cfg0.N = Fgate (W m c) (X m c) (H m c) :=
  (dats m 0 c).arrAt_eq_of_cover 21 (Fgate (W m c) (X m c) (H m c)) (fun t _ => flushed21_eq m c t) cover21

/-- Every weakly fair execution of the idealized kernel ends with the three results at the step's array functions of
    the arguments (the rest of the generated run's post, the arguments unchanged, is kept as it is). -/
theorem run : θ_run defs (onTc (τ := τ) (main (F := Ideal))) ⟨m, fun _ => 0, ρ⟩ fun r => ∀ c : Dev nD,
      r.2.mem ((c : Thread nD τ).loc main_v18_0) = Hnew (W m c) (X m c) (H m c) (C m c)
      ∧ r.2.mem ((c : Thread nD τ).loc main_v18_1) = Cnew (W m c) (X m c) (H m c) (C m c)
      ∧ r.2.mem ((c : Thread nD τ).loc main_v18_2) = Fgate (W m c) (X m c) (H m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final19 m c), (h c).2.1.trans (final20 m c),
      (h c).2.2.1.trans (final21 m c), (h c).2.2.2⟩)
    (Value.run_blocks m ρ)

end Cert.KernelIdeal.Final

end
-- ==== Proof.RefBridge.lean ====
/-
  The reference program of one LSTM step, read entry by entry, is the row-by-row mathematics of the cell module.

  The reference computes, for the input array x, the hidden array h and the cell array c (8192 rows of 1024 entries):
    z₁ = max (concat (x, h) · W1 + b1) 0,   z₂ = max (z₁ · W2 + b2) 0,   f = 1 / (1 + exp (−(z₂ · W3 + b3))),
    i = 1 / (1 + exp (−(h · W_hi + x · W_xi + b_i))),   g = tanh (h · W_hc + x · W_xc + b_c),
    o = 1 / (1 + exp (−(h · W_ho + x · W_xo + b_o))),   c' = f · c + i · g,   h' = o · tanh c'.
  The generated module imported here gives, for every operation but the first, the value of its result at an index
  in terms of its operands at an index: a matrix product is the sum over the contracted coordinate, a bias is
  broadcast along the rows, the other operations act entry by entry. What is added here:

  * the first operation joins x and h along the columns; entry (r, k) of the joined array is x (r, k) for k below
    1024 and h (r, k − 1024) from 1024 on (`joined_lo`, `joined_hi`);
  * so the 2048-term sum of the first layer splits into the sum over the first 1024 columns, which meets x and the
    first 1024 rows of W1 (`lo`), plus the sum over the last 1024, which meets h and the last 1024 rows of W1
    (`hi`) — the only law of addition used, and it holds on the extended reals without any finiteness;
  * each index the generated module computes from the coordinates of (r, q) is the index with the expected
    coordinates (the `lidx…`, `ridx…`, `bidx…` equations: both sides agree coordinate by coordinate);
  * 1 / (1 + exp (−t)), with 1 the f32 pattern of one, is the logistic function of t.

  With these each stage, read at (r, q), is the corresponding row function of the cell module applied to row r of x
  and of h; the three closing theorems say so for the forget gate, the new cell array and the new hidden array.
  The rectifiers' threshold is the f32 pattern of zero on both sides and is never evaluated.
-/
import proofs.«130329_j70411693851113_1_alg».proof.Proof.Gen.ReferenceIdeal.Read
import proofs.«130329_j70411693851113_1_alg».proof.Proof.Cell
import Idealize.ShloMosaic.Lib.Pipeline.Value
import Idealize.ShloMosaic.Lib.ValueIdx
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.LstmCell

section Stages

variable (x0 x1 x2 : (⟨S8192x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal))
  (x9 x10 : (⟨S1024x1024, .f32⟩ : BufTy).Contents (Elt Ideal)) (x11 : (⟨S1024, .f32⟩ : BufTy).Contents (Elt Ideal)) (x12 : (⟨S2048x16, .f32⟩ : BufTy).Contents (Elt Ideal)) (x13 : (⟨S16, .f32⟩ : BufTy).Contents (Elt Ideal)) (x14 : (⟨S16x8, .f32⟩ : BufTy).Contents (Elt Ideal)) (x15 : (⟨S8, .f32⟩ : BufTy).Contents (Elt Ideal))
  (x16 : (⟨S8x1024, .f32⟩ : BufTy).Contents (Elt Ideal)) (x17 : (⟨S1024, .f32⟩ : BufTy).Contents (Elt Ideal))

/-! ## The joined array -/

/-- In its first 1024 columns the array that joins x and h along the columns is x. -/
theorem joined_lo (r : Fin 8192) (k : Fin 1024) :
    val_main_v0 (F := Ideal) x0 x1 (ix2 r (lo k)) = x0 (ix2 r k) := by
  unfold val_main_v0
  exact concatenate_pair_apply_left (t := S8192x2048) (s₁ := S8192x1024) (s₂ := S8192x1024) 1 x0 x1
    concatenates_S8192x1024_S8192x1024_S8192x2048_d1 (ix2 r (lo k)) rfl (ix2 r k) (fun b => by
    match b with
    | ⟨0, _⟩ => rfl
    | ⟨1, _⟩ => rfl)

/-- In its last 1024 columns it is h, read 1024 columns to the left: column 1024 + k of the joined array is column k of h. -/
theorem joined_hi (r : Fin 8192) (k : Fin 1024) :
    val_main_v0 (F := Ideal) x0 x1 (ix2 r (hi k)) = x1 (ix2 r k) := by
  unfold val_main_v0
  exact concatenate_pair_apply_right (t := S8192x2048) (s₁ := S8192x1024) (s₂ := S8192x1024) 1 x0 x1
    concatenates_S8192x1024_S8192x1024_S8192x2048_d1 (ix2 r (hi k)) rfl rfl (ix2 r k)
    (fun b hb => by
      match b with
      | ⟨0, _⟩ => rfl
      | ⟨1, _⟩ => exact absurd rfl hb)
    (Nat.add_comm k.val 1024)

/-! ## The perceptron of the forget gate -/

/-- Entry (r, j) of a product contracts row r of the left factor … -/
theorem lidx1 (r : Fin 8192) (j : Fin 16) (k : Fin 2048) : lidx_main_v1 (ix2 r j) k = ix2 r k :=
  funext fun a => by match a with | ⟨0, _⟩ => rfl | ⟨1, _⟩ => rfl
/-- … with column j of the right factor. -/
theorem ridx1 (r : Fin 8192) (j : Fin 16) (k : Fin 2048) : ridx_main_v1 (ix2 r j) k = ix2 k j :=
  funext fun a => by match a with | ⟨0, _⟩ => rfl | ⟨1, _⟩ => rfl
/-- A bias broadcast first to one row and then to all rows is read at the column alone. -/
theorem bidx1 (r : Fin 8192) (j : Fin 16) : idx_main_v2 (idx_main_v3 (ix2 r j)) = ix1 j :=
  funext fun a => by match a with | ⟨0, _⟩ => rfl

/-- The first hidden layer of row r, the weights read from the argument arrays: the first 1024 rows of W1 meet
    the input row, the last 1024 rows the hidden row. -/
abbrev layer1 (r : Fin 8192) : Fin 16 → EReal :=
  hid1 (fun k j => x12 (ix2 (lo k) j)) (fun k j => x12 (ix2 (hi k) j)) (fun j => x13 (ix1 j)) (rowOf x0 r) (rowOf x1 r)

/-- The first rectified stage at (r, j): the sum over the 2048 joined columns, split into its two halves, is the
    input row through the first 1024 rows of W1 plus the hidden row through the last 1024; then the bias and
    the maximum with zero. -/
theorem layer1_at (r : Fin 8192) (j : Fin 16) :
    val_main_v5 (F := Ideal) x0 x1 x12 x13 (ix2 r j) = layer1 x0 x1 x12 x13 r j := by
  rw [val_main_v5_apply, val_main_v4_apply, val_main_v1_apply, val_main_v3_apply, val_main_v2_apply,
    val_main_call0_v0_apply, val_main_call0_cst_apply, sum_split]
  simp only [lidx1, ridx1, bidx1, joined_lo, joined_hi]
  rfl

theorem lidx6 (r : Fin 8192) (l : Fin 8) (k : Fin 16) : lidx_main_v6 (ix2 r l) k = ix2 r k :=
  funext fun a => by match a with | ⟨0, _⟩ => rfl | ⟨1, _⟩ => rfl
theorem ridx6 (r : Fin 8192) (l : Fin 8) (k : Fin 16) : ridx_main_v6 (ix2 r l) k = ix2 k l :=
  funext fun a => by match a with | ⟨0, _⟩ => rfl | ⟨1, _⟩ => rfl
theorem bidx6 (r : Fin 8192) (l : Fin 8) : idx_main_v7 (idx_main_v8 (ix2 r l)) = ix1 l :=
  funext fun a => by match a with | ⟨0, _⟩ => rfl

/-- The second hidden layer of row r. -/
abbrev layer2 (r : Fin 8192) : Fin 8 → EReal :=
  hid2 (fun j l => x14 (ix2 j l)) (fun l => x15 (ix1 l)) (layer1 x0 x1 x12 x13 r)

/-- The second rectified stage at (r, l): the 16 first-layer values of row r through column l of W2, plus the
    bias, and the maximum with zero. -/
theorem layer2_at (r : Fin 8192) (l : Fin 8) :
    val_main_v10 (F := Ideal) x0 x1 x12 x13 x14 x15 (ix2 r l) = layer2 x0 x1 x12 x13 x14 x15 r l := by
  rw [val_main_v10_apply, val_main_v9_apply, val_main_v6_apply, val_main_v8_apply, val_main_v7_apply,
    val_main_call1_v0_apply, val_main_call1_cst_apply]
  simp only [lidx6, ridx6, bidx6, layer1_at]
  rfl

theorem lidx11 (r : Fin 8192) (q : Fin 1024) (k : Fin 8) : lidx_main_v11 (ix2 r q) k = ix2 r k :=
  funext fun a => by match a with | ⟨0, _⟩ => rfl | ⟨1, _⟩ => rfl
theorem ridx11 (r : Fin 8192) (q : Fin 1024) (k : Fin 8) : ridx_main_v11 (ix2 r q) k = ix2 k q :=
  funext fun a => by match a with | ⟨0, _⟩ => rfl | ⟨1, _⟩ => rfl
theorem bidx11 (r : Fin 8192) (q : Fin 1024) : idx_main_v12 (idx_main_v13 (ix2 r q)) = ix1 q :=
  funext fun a => by match a with | ⟨0, _⟩ => rfl

/-- The perceptron's output of row r before the logistic function. -/
abbrev forgetPre (r : Fin 8192) : Fin 1024 → EReal :=
  fpre (fun l q => x16 (ix2 l q)) (fun q => x17 (ix1 q)) (layer2 x0 x1 x12 x13 x14 x15 r)

/-- The third affine stage at (r, q): the 8 second-layer values of row r through column q of W3, plus the bias. -/
theorem forgetPre_at (r : Fin 8192) (q : Fin 1024) :
    val_main_v14 (F := Ideal) x0 x1 x12 x13 x14 x15 x16 x17 (ix2 r q)
      = forgetPre x0 x1 x12 x13 x14 x15 x16 x17 r q := by
  rw [val_main_v14_apply, val_main_v11_apply, val_main_v13_apply, val_main_v12_apply]
  simp only [lidx11, ridx11, bidx11, layer2_at]
  rfl

/-- The forget gate at (r, q): one over one plus the exponential of the negated output is its logistic function. -/
theorem forget_at (r : Fin 8192) (q : Fin 1024) :
    val_main_v20 (F := Ideal) x0 x1 x12 x13 x14 x15 x16 x17 (ix2 r q)
      = Ideal.logistic (forgetPre x0 x1 x12 x13 x14 x15 x16 x17 r q) := by
  rw [val_main_v20_apply, val_main_v19_apply, val_main_cst_0_apply, val_main_v18_apply, val_main_v17_apply,
    val_main_cst_apply, val_main_v16_apply, val_main_v15_apply, forgetPre_at]
  exact logistic_spelled _

/-! ## The input, candidate and output gates

  Each is the hidden row through one matrix, plus the input row through another, plus a bias; the three differ
  only in which arrays they read. -/

theorem lidx21 (r : Fin 8192) (q k : Fin 1024) : lidx_main_v21 (ix2 r q) k = ix2 r k :=
  funext fun a => by match a with | ⟨0, _⟩ => rfl | ⟨1, _⟩ => rfl
theorem ridx21 (r : Fin 8192) (q k : Fin 1024) : ridx_main_v21 (ix2 r q) k = ix2 k q :=
  funext fun a => by match a with | ⟨0, _⟩ => rfl | ⟨1, _⟩ => rfl
theorem lidx22 (r : Fin 8192) (q k : Fin 1024) : lidx_main_v22 (ix2 r q) k = ix2 r k :=
  funext fun a => by match a with | ⟨0, _⟩ => rfl | ⟨1, _⟩ => rfl
theorem ridx22 (r : Fin 8192) (q k : Fin 1024) : ridx_main_v22 (ix2 r q) k = ix2 k q :=
  funext fun a => by match a with | ⟨0, _⟩ => rfl | ⟨1, _⟩ => rfl
theorem bidx24 (r : Fin 8192) (q : Fin 1024) : idx_main_v24 (idx_main_v25 (ix2 r q)) = ix1 q :=
  funext fun a => by match a with | ⟨0, _⟩ => rfl

/-- The input gate's pre-activation of row r. -/
abbrev inPre (r : Fin 8192) : Fin 1024 → EReal :=
  gate (fun k q => x3 (ix2 k q)) (fun k q => x4 (ix2 k q)) (fun q => x5 (ix1 q)) (rowOf x1 r) (rowOf x0 r)

/-- The input gate's affine stage at (r, q). -/
theorem inPre_at (r : Fin 8192) (q : Fin 1024) :
    val_main_v26 (F := Ideal) x0 x1 x3 x4 x5 (ix2 r q) = inPre x0 x1 x3 x4 x5 r q := by
  rw [val_main_v26_apply, val_main_v23_apply, val_main_v21_apply, val_main_v22_apply, val_main_v25_apply,
    val_main_v24_apply]
  simp only [lidx21, ridx21, lidx22, ridx22, bidx24]
  rfl

/-- The input gate at (r, q) is the logistic function of its pre-activation. -/
theorem in_at (r : Fin 8192) (q : Fin 1024) :
    val_main_v32 (F := Ideal) x0 x1 x3 x4 x5 (ix2 r q) = Ideal.logistic (inPre x0 x1 x3 x4 x5 r q) := by
  rw [val_main_v32_apply, val_main_v31_apply, val_main_cst_2_apply, val_main_v30_apply, val_main_v29_apply,
    val_main_cst_1_apply, val_main_v28_apply, val_main_v27_apply, inPre_at]
  exact logistic_spelled _

theorem lidx33 (r : Fin 8192) (q k : Fin 1024) : lidx_main_v33 (ix2 r q) k = ix2 r k :=
  funext fun a => by match a with | ⟨0, _⟩ => rfl | ⟨1, _⟩ => rfl
theorem ridx33 (r : Fin 8192) (q k : Fin 1024) : ridx_main_v33 (ix2 r q) k = ix2 k q :=
  funext fun a => by match a with | ⟨0, _⟩ => rfl | ⟨1, _⟩ => rfl
theorem lidx34 (r : Fin 8192) (q k : Fin 1024) : lidx_main_v34 (ix2 r q) k = ix2 r k :=
  funext fun a => by match a with | ⟨0, _⟩ => rfl | ⟨1, _⟩ => rfl
theorem ridx34 (r : Fin 8192) (q k : Fin 1024) : ridx_main_v34 (ix2 r q) k = ix2 k q :=
  funext fun a => by match a with | ⟨0, _⟩ => rfl | ⟨1, _⟩ => rfl
theorem bidx36 (r : Fin 8192) (q : Fin 1024) : idx_main_v36 (idx_main_v37 (ix2 r q)) = ix1 q :=
  funext fun a => by match a with | ⟨0, _⟩ => rfl

/-- The candidate's pre-activation of row r. -/
abbrev candPre (r : Fin 8192) : Fin 1024 → EReal :=
  gate (fun k q => x6 (ix2 k q)) (fun k q => x7 (ix2 k q)) (fun q => x8 (ix1 q)) (rowOf x1 r) (rowOf x0 r)

/-- The candidate's affine stage at (r, q). -/
theorem candPre_at (r : Fin 8192) (q : Fin 1024) :
    val_main_v38 (F := Ideal) x0 x1 x6 x7 x8 (ix2 r q) = candPre x0 x1 x6 x7 x8 r q := by
  rw [val_main_v38_apply, val_main_v35_apply, val_main_v33_apply, val_main_v34_apply, val_main_v37_apply,
    val_main_v36_apply]
  simp only [lidx33, ridx33, lidx34, ridx34, bidx36]
  rfl

/-- The candidate at (r, q) is the hyperbolic tangent of its pre-activation. -/
theorem cand_at (r : Fin 8192) (q : Fin 1024) :
    val_main_v39 (F := Ideal) x0 x1 x6 x7 x8 (ix2 r q) = Ideal.tanh (candPre x0 x1 x6 x7 x8 r q) := by
  rw [val_main_v39_apply, candPre_at]
  rfl

theorem lidx40 (r : Fin 8192) (q k : Fin 1024) : lidx_main_v40 (ix2 r q) k = ix2 r k :=
  funext fun a => by match a with | ⟨0, _⟩ => rfl | ⟨1, _⟩ => rfl
theorem ridx40 (r : Fin 8192) (q k : Fin 1024) : ridx_main_v40 (ix2 r q) k = ix2 k q :=
  funext fun a => by match a with | ⟨0, _⟩ => rfl | ⟨1, _⟩ => rfl
theorem lidx41 (r : Fin 8192) (q k : Fin 1024) : lidx_main_v41 (ix2 r q) k = ix2 r k :=
  funext fun a => by match a with | ⟨0, _⟩ => rfl | ⟨1, _⟩ => rfl
theorem ridx41 (r : Fin 8192) (q k : Fin 1024) : ridx_main_v41 (ix2 r q) k = ix2 k q :=
  funext fun a => by match a with | ⟨0, _⟩ => rfl | ⟨1, _⟩ => rfl
theorem bidx43 (r : Fin 8192) (q : Fin 1024) : idx_main_v43 (idx_main_v44 (ix2 r q)) = ix1 q :=
  funext fun a => by match a with | ⟨0, _⟩ => rfl

/-- The output gate's pre-activation of row r. -/
abbrev outPre (r : Fin 8192) : Fin 1024 → EReal :=
  gate (fun k q => x9 (ix2 k q)) (fun k q => x10 (ix2 k q)) (fun q => x11 (ix1 q)) (rowOf x1 r) (rowOf x0 r)

/-- The output gate's affine stage at (r, q). -/
theorem outPre_at (r : Fin 8192) (q : Fin 1024) :
    val_main_v45 (F := Ideal) x0 x1 x9 x10 x11 (ix2 r q) = outPre x0 x1 x9 x10 x11 r q := by
  rw [val_main_v45_apply, val_main_v42_apply, val_main_v40_apply, val_main_v41_apply, val_main_v44_apply,
    val_main_v43_apply]
  simp only [lidx40, ridx40, lidx41, ridx41, bidx43]
  rfl

/-- The output gate at (r, q) is the logistic function of its pre-activation. -/
theorem out_at (r : Fin 8192) (q : Fin 1024) :
    val_main_v51 (F := Ideal) x0 x1 x9 x10 x11 (ix2 r q) = Ideal.logistic (outPre x0 x1 x9 x10 x11 r q) := by
  rw [val_main_v51_apply, val_main_v50_apply, val_main_cst_4_apply, val_main_v49_apply, val_main_v48_apply,
    val_main_cst_3_apply, val_main_v47_apply, val_main_v46_apply, outPre_at]
  exact logistic_spelled _

/-! ## The new cell entry -/

/-- The new cell entry at (r, q): the forget gate times the old entry, plus the input gate times the candidate. -/
theorem cell_at (r : Fin 8192) (q : Fin 1024) :
    val_main_v54 (F := Ideal) x0 x1 x2 x3 x4 x5 x6 x7 x8 x12 x13 x14 x15 x16 x17 (ix2 r q)
      = Ideal.logistic (forgetPre x0 x1 x12 x13 x14 x15 x16 x17 r q) * x2 (ix2 r q)
        + Ideal.logistic (inPre x0 x1 x3 x4 x5 r q) * Ideal.tanh (candPre x0 x1 x6 x7 x8 r q) := by
  rw [val_main_v54_apply, val_main_v52_apply, val_main_v53_apply, forget_at, in_at, cand_at]
  rfl

end Stages

/-! ## The three arrays

  Every index of an array of 8192 rows and 1024 columns is (r, q) for its two coordinates, so the entrywise
  statements above are equalities of arrays; the weights' accessors of the cell module, taken at the argument
  arrays, are the functions of coordinates used above. -/

/-- The reference's forget-gate array is the forget gate of the cell module, row by row. -/
theorem forget_eq (x0 x1 : (⟨S8192x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal))
    (x9 x10 : (⟨S1024x1024, .f32⟩ : BufTy).Contents (Elt Ideal)) (x11 : (⟨S1024, .f32⟩ : BufTy).Contents (Elt Ideal)) (x12 : (⟨S2048x16, .f32⟩ : BufTy).Contents (Elt Ideal)) (x13 : (⟨S16, .f32⟩ : BufTy).Contents (Elt Ideal)) (x14 : (⟨S16x8, .f32⟩ : BufTy).Contents (Elt Ideal)) (x15 : (⟨S8, .f32⟩ : BufTy).Contents (Elt Ideal))
    (x16 : (⟨S8x1024, .f32⟩ : BufTy).Contents (Elt Ideal)) (x17 : (⟨S1024, .f32⟩ : BufTy).Contents (Elt Ideal)) :
    Read.val_main_v20 (F := Ideal) x0 x1 x12 x13 x14 x15 x16 x17
      = Cert.LstmCell.Fgate (Cert.LstmCell.ofArrays x3 x4 x5 x6 x7 x8 x9 x10 x11 x12 x13 x14 x15 x16 x17) x0 x1 := by
  funext i
  obtain ⟨r, q, rfl⟩ : ∃ (r : Fin 8192) (q : Fin 1024), i = ix2 r q := ⟨i 0, i 1, eq_ix2 i⟩
  rw [forget_at]
  rfl

/-- The reference's new cell array is the new cell entry of the cell module, row by row. -/
theorem cell_eq (x0 x1 x2 : (⟨S8192x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal))
    (x9 x10 : (⟨S1024x1024, .f32⟩ : BufTy).Contents (Elt Ideal)) (x11 : (⟨S1024, .f32⟩ : BufTy).Contents (Elt Ideal)) (x12 : (⟨S2048x16, .f32⟩ : BufTy).Contents (Elt Ideal)) (x13 : (⟨S16, .f32⟩ : BufTy).Contents (Elt Ideal)) (x14 : (⟨S16x8, .f32⟩ : BufTy).Contents (Elt Ideal)) (x15 : (⟨S8, .f32⟩ : BufTy).Contents (Elt Ideal))
    (x16 : (⟨S8x1024, .f32⟩ : BufTy).Contents (Elt Ideal)) (x17 : (⟨S1024, .f32⟩ : BufTy).Contents (Elt Ideal)) :
    Read.val_main_v54 (F := Ideal) x0 x1 x2 x3 x4 x5 x6 x7 x8 x12 x13 x14 x15 x16 x17
      = Cert.LstmCell.Cnew (Cert.LstmCell.ofArrays x3 x4 x5 x6 x7 x8 x9 x10 x11 x12 x13 x14 x15 x16 x17) x0 x1 x2 := by
  funext i
  obtain ⟨r, q, rfl⟩ : ∃ (r : Fin 8192) (q : Fin 1024), i = ix2 r q := ⟨i 0, i 1, eq_ix2 i⟩
  rw [cell_at]
  rfl

/-- The reference's new hidden array: the output gate times the hyperbolic tangent of the new cell entry. -/
theorem hidden_eq (x0 x1 x2 : (⟨S8192x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal))
    (x9 x10 : (⟨S1024x1024, .f32⟩ : BufTy).Contents (Elt Ideal)) (x11 : (⟨S1024, .f32⟩ : BufTy).Contents (Elt Ideal)) (x12 : (⟨S2048x16, .f32⟩ : BufTy).Contents (Elt Ideal)) (x13 : (⟨S16, .f32⟩ : BufTy).Contents (Elt Ideal)) (x14 : (⟨S16x8, .f32⟩ : BufTy).Contents (Elt Ideal)) (x15 : (⟨S8, .f32⟩ : BufTy).Contents (Elt Ideal))
    (x16 : (⟨S8x1024, .f32⟩ : BufTy).Contents (Elt Ideal)) (x17 : (⟨S1024, .f32⟩ : BufTy).Contents (Elt Ideal)) :
    Read.val_main_v56 (F := Ideal) x0 x1 x2 x3 x4 x5 x6 x7 x8 x9 x10 x11 x12 x13 x14 x15 x16 x17
      = Cert.LstmCell.Hnew (Cert.LstmCell.ofArrays x3 x4 x5 x6 x7 x8 x9 x10 x11 x12 x13 x14 x15 x16 x17) x0 x1 x2 := by
  funext i
  obtain ⟨r, q, rfl⟩ : ∃ (r : Fin 8192) (q : Fin 1024), i = ix2 r q := ⟨i 0, i 1, eq_ix2 i⟩
  rw [val_main_v56_apply, val_main_v55_apply, out_at, cell_at]
  rfl

end Cert.ReferenceIdeal.RefValue

end
-- ==== Proof.lean ====
/-
  An LSTM step whose forget gate is a three-layer perceptron of the joined input and hidden rows, computed by a
  pipelined kernel over 32 blocks of 256 batch rows, against the plain array program.

  Over the extended reals both programs compute, row by row (Proof/Cell.lean),
    f = σ (relu (relu ([x, h] · W1 + b1) · W2 + b2) · W3 + b3),   i = σ (h·W_hi + x·W_xi + b_i),
    g = tanh (h·W_hc + x·W_xc + b_c),   o = σ (h·W_ho + x·W_xo + b_o),   c' = f·c + i·g,   h' = o·tanh c',
  and return h', c' and f. They differ in three ways, none of which changes a value at the ideal instance:
  the kernel multiplies bf16 copies (a change of float format is the identity here); it writes the logistic function
  as one operation where the array program spells 1 / (1 + exp (−t)); and it multiplies the input rows by the first
  1024 rows of W1 and the hidden rows by the last 1024 and adds, where the array program multiplies the joined
  2048-long rows by W1 whole — a sum over 2048 terms split in two, which needs only that addition is commutative
  and associative. So the precondition (finite inputs) is not used by the value claim.

  The kernel side (Proof/Block.lean, Proof/Arrays.lean, Proof/Final.lean) reads the generated run block by block;
  the array program's side (Proof/RefBridge.lean) reads its generated run stage by stage; both arrive at the same three
  functions of the arguments. The word-level kernel's frame and the idealized kernel's frame are the generated ones;
  the array program's frame is its generated run with the results dropped; nothing was rewritten between the
  word-level and the idealized kernel, so that claim is trivial.
-/
import proofs.«130329_j70411693851113_1_alg».proof.Defs
import proofs.«130329_j70411693851113_1_alg».proof.Proof.Gen.Kernel
import proofs.«130329_j70411693851113_1_alg».proof.Proof.Gen.Kernel.Skeleton
import proofs.«130329_j70411693851113_1_alg».proof.Proof.Gen.Kernel.Launch
import proofs.«130329_j70411693851113_1_alg».proof.Proof.Gen.Kernel.Points
import proofs.«130329_j70411693851113_1_alg».proof.Proof.Gen.Kernel.Frame
import proofs.«130329_j70411693851113_1_alg».proof.Proof.Gen.KernelIdeal
import proofs.«130329_j70411693851113_1_alg».proof.Proof.Gen.KernelIdeal.Skeleton
import proofs.«130329_j70411693851113_1_alg».proof.Proof.Gen.KernelIdeal.Launch
import proofs.«130329_j70411693851113_1_alg».proof.Proof.Gen.KernelIdeal.Points
import proofs.«130329_j70411693851113_1_alg».proof.Proof.Gen.KernelIdeal.Frame
import proofs.«130329_j70411693851113_1_alg».proof.Proof.Gen.ReferenceIdeal
import proofs.«130329_j70411693851113_1_alg».proof.Proof.Gen.Pre_finite_inputs
import proofs.«130329_j70411693851113_1_alg».proof.Proof.Gen.KernelIdeal.Value
import proofs.«130329_j70411693851113_1_alg».proof.Proof.Gen.ReferenceIdeal.Run
import proofs.«130329_j70411693851113_1_alg».proof.Proof.Gen.ReferenceIdeal.Read
import proofs.«130329_j70411693851113_1_alg».proof.Proof.Final
import proofs.«130329_j70411693851113_1_alg».proof.Proof.RefBridge
import Idealize.ShloMosaic.Adequacy
import Idealize.ShloMosaic.Init

noncomputable section

namespace Cert.Proof

open Idealize.ShloMosaic Idealize.SL.Sem Cert.LstmCell

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The array program runs and leaves its arguments unchanged: its generated run, the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- No operation was rewritten between the word-level and the idealized kernel. -/
theorem preserves : Cert.preserves_Kernel_KernelIdeal := trivial

/-! ## Equal arguments give equal results -/

section Congr

variable {x0 x1 x2 y0 y1 y2 : (⟨2, ![8192, 1024]⟩ : Shape).Idx → EReal}
  {x3 x4 y3 y4 : (⟨2, ![1024, 1024]⟩ : Shape).Idx → EReal} {x5 y5 : (⟨1, ![1024]⟩ : Shape).Idx → EReal}
  {x6 x7 y6 y7 : (⟨2, ![1024, 1024]⟩ : Shape).Idx → EReal} {x8 y8 : (⟨1, ![1024]⟩ : Shape).Idx → EReal}
  {x9 x10 y9 y10 : (⟨2, ![1024, 1024]⟩ : Shape).Idx → EReal} {x11 y11 : (⟨1, ![1024]⟩ : Shape).Idx → EReal}
  {x12 y12 : (⟨2, ![2048, 16]⟩ : Shape).Idx → EReal} {x13 y13 : (⟨1, ![16]⟩ : Shape).Idx → EReal}
  {x14 y14 : (⟨2, ![16, 8]⟩ : Shape).Idx → EReal} {x15 y15 : (⟨1, ![8]⟩ : Shape).Idx → EReal}
  {x16 y16 : (⟨2, ![8, 1024]⟩ : Shape).Idx → EReal} {x17 y17 : (⟨1, ![1024]⟩ : Shape).Idx → EReal}

/-- The step's weights depend on the fifteen weight arrays only. -/
theorem weights_congr (a3 : y3 = x3) (a4 : y4 = x4) (a5 : y5 = x5) (a6 : y6 = x6) (a7 : y7 = x7) (a8 : y8 = x8)
    (a9 : y9 = x9) (a10 : y10 = x10) (a11 : y11 = x11) (a12 : y12 = x12) (a13 : y13 = x13) (a14 : y14 = x14)
    (a15 : y15 = x15) (a16 : y16 = x16) (a17 : y17 = x17) :
    ofArrays y3 y4 y5 y6 y7 y8 y9 y10 y11 y12 y13 y14 y15 y16 y17
      = ofArrays x3 x4 x5 x6 x7 x8 x9 x10 x11 x12 x13 x14 x15 x16 x17 := by
  subst a3 a4 a5 a6 a7 a8 a9 a10 a11 a12 a13 a14 a15 a16 a17; rfl

theorem hidden_congr {W W' : Wts} (aW : W' = W) (a0 : y0 = x0) (a1 : y1 = x1) (a2 : y2 = x2) :
    Hnew W' y0 y1 y2 = Hnew W x0 x1 x2 := by subst aW a0 a1 a2; rfl

theorem cell_congr {W W' : Wts} (aW : W' = W) (a0 : y0 = x0) (a1 : y1 = x1) (a2 : y2 = x2) :
    Cnew W' y0 y1 y2 = Cnew W x0 x1 x2 := by subst aW a0 a1 a2; rfl

theorem forget_congr {W W' : Wts} (aW : W' = W) (a0 : y0 = x0) (a1 : y1 = x1) :
    Fgate W' y0 y1 = Fgate W x0 x1 := by subst aW a0 a1; rfl

end Congr

/-- From memories agreeing on the arguments both programs end with the new hidden array, the new cell array and the
    forget-gate array of the step: the kernel by its run read block by block, the array program by its run read stage by
    stage, at the same weights and the same x, h, c. -/
theorem algebraic : Cert.algebraic_KernelIdeal_ReferenceIdeal := by
  intro m ρ m' ρ' _ hagree
  refine ⟨fun c => Hnew (Cert.KernelIdeal.Final.W m c) (Cert.KernelIdeal.Final.X m c) (Cert.KernelIdeal.Final.H m c) (Cert.KernelIdeal.Final.C m c),
    fun c => Cnew (Cert.KernelIdeal.Final.W m c) (Cert.KernelIdeal.Final.X m c) (Cert.KernelIdeal.Final.H m c) (Cert.KernelIdeal.Final.C m c),
    fun c => Fgate (Cert.KernelIdeal.Final.W m c) (Cert.KernelIdeal.Final.X m c) (Cert.KernelIdeal.Final.H m c),
    Cert.KernelIdeal.Final.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17⟩ := hagree c
  have aW := weights_congr a3 a4 a5 a6 a7 a8 a9 a10 a11 a12 a13 a14 a15 a16 a17
  refine ⟨(h c).1.trans ?_, (h c).2.1.trans ?_, (h c).2.2.1.trans ?_, (h c).2.2.2⟩
  · exact (Cert.ReferenceIdeal.RefValue.hidden_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))).trans
      (hidden_congr aW a0 a1 a2)
  · exact (Cert.ReferenceIdeal.RefValue.cell_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))).trans
      (cell_congr aW a0 a1 a2)
  · exact (Cert.ReferenceIdeal.RefValue.forget_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))).trans
      (forget_congr aW a0 a1)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
